-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x112x112x128 : Shape := ⟨4, ![16, 112, 112, 128]⟩
abbrev S_ : Shape := ⟨0, ![]⟩

class Facts : Prop where
  bcast_S_S16x112x112x128 : S_.BroadcastsInDim S16x112x112x128 (![] : Fin 0 → Fin S16x112x112x128.rank)
  reducesTo_S16x112x112x128_S_d0_1_2_3 : S16x112x112x128.ReducesTo [0, 1, 2, 3] S_
  h_S_ : 0 < S_.numel

variable [Facts]

def fn {F : FTy → Type} [FloatOps F] (main_arg0 : FVec F S16x112x112x128 .f32) : IVec S_ 1 :=
  let main_v0 : FVec F S16x112x112x128 .f32 := Host.absf main_arg0
  let main_cst : FVec F S_ .f32 := constant S_ .f32 0x7F800000#32
  let main_v1 : FVec F S16x112x112x128 .f32 := broadcastInDim S16x112x112x128 ![] bcast_S_S16x112x112x128 main_cst
  let main_v2 : IVec S16x112x112x128 1 := cmpf .olt main_v0 main_v1
  let main_c : IVec S_ 1 := constantI S_ 1 1#1
  let main_v3 : IVec S_ 1 := (fun x v => Host.reduce IntOp.andi x v reducesTo_S16x112x112x128_S_d0_1_2_3 h_S_) main_v2 main_c
  main_v3
-- ==== Kernel.lean ====
abbrev S16x112x112x128 : Shape := ⟨4, ![16, 112, 112, 128]⟩
abbrev S16x112x56x256 : Shape := ⟨4, ![16, 112, 56, 256]⟩
abbrev S16x55x55x2048 : Shape := ⟨4, ![16, 55, 55, 2048]⟩
abbrev S1x112x56x256 : Shape := ⟨4, ![1, 112, 56, 256]⟩
abbrev S1x11x55x2048 : Shape := ⟨4, ![1, 11, 55, 2048]⟩
abbrev S1x1x55x256 : Shape := ⟨4, ![1, 1, 55, 256]⟩
abbrev S55x256 : Shape := ⟨2, ![55, 256]⟩
abbrev S16x3025x2048 : Shape := ⟨3, ![16, 3025, 2048]⟩

abbrev nBuf : Space → Nat
  | .hbm => 4
  | .vmem => 4
  | .smem => 0
  | _ => 0

abbrev bufTy : (tb : Table) → Fin (tcTables nBuf tb) → BufTy
  | .hbm, ⟨0, _⟩ => ⟨S16x112x112x128, .f32⟩
  | .hbm, ⟨1, _⟩ => ⟨S16x112x56x256, .f32⟩
  | .hbm, ⟨2, _⟩ => ⟨S16x55x55x2048, .f32⟩
  | .hbm, ⟨3, _⟩ => ⟨S16x3025x2048, .f32⟩
  | .local _ .vmem, ⟨0, _⟩ => ⟨S1x112x56x256, .f32⟩
  | .local _ .vmem, ⟨1, _⟩ => ⟨S1x112x56x256, .f32⟩
  | .local _ .vmem, ⟨2, _⟩ => ⟨S1x11x55x2048, .f32⟩
  | .local _ .vmem, ⟨3, _⟩ => ⟨S1x11x55x2048, .f32⟩
  | _, _ => ⟨S16x112x112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 5], ![false, false]⟩

def k0_off1 (i : grid0.Coords) (c0_i32 : BitVec 32) (c0_i32_0 : BitVec 32) : Fin 4 → Nat :=
  let c0 : Index := 0#32
  let arg1 : BitVec 32 := BitVec.ofNat 32 (i 1).val
  let c11_i32 : BitVec 32 := 11#32
  let v0 : BitVec 32 := Scalar.muli arg1 c11_i32
  let c2_i32 : BitVec 32 := 2#32
  let v1 : BitVec 32 := Scalar.muli v0 c2_i32
  let v2 : BitVec 32 := Scalar.addi v1 c0_i32
  let v3 : BitVec 32 := Scalar.addi v2 c0_i32_0
  let v4 : Index := Scalar.indexCast v3
  let c0_1 : Index := 0#32
  let c0_2 : Index := 0#32
  ![0, v4.toNat, 0, 0]
def k0_off2 (i : grid0.Coords) (c0_i32_78 : BitVec 32) (c0_i32_79 : BitVec 32) : Fin 4 → Nat :=
  let c0_80 : Index := 0#32
  let arg1 : BitVec 32 := BitVec.ofNat 32 (i 1).val
  let c11_i32 : BitVec 32 := 11#32
  let v0 : BitVec 32 := Scalar.muli arg1 c11_i32
  let c2_i32 : BitVec 32 := 2#32
  let v1 : BitVec 32 := Scalar.muli v0 c2_i32
  let v90 : BitVec 32 := Scalar.addi v1 c0_i32_78
  let v91 : BitVec 32 := Scalar.addi v90 c0_i32_79
  let v92 : Index := Scalar.indexCast v91
  let c1_81 : Index := 1#32
  let c0_82 : Index := 0#32
  ![0, v92.toNat, 1, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x112x56x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11x55x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x112x112x128_S16x112x56x256 : S16x112x112x128.ShapeCasts S16x112x56x256
  h_S1x1x55x256 : 0 < S1x1x55x256.numel
  shapeCasts_S1x1x55x256_S55x256 : S1x1x55x256.ShapeCasts S55x256
  inb_S1x11x55x2048_S1x1x55x256_0_0_0_0 : ∀ a, (![0, 0, 0, 0] : Fin 4 → Nat) a + S1x1x55x256.size a ≤ S1x11x55x2048.size a
  shapeCasts_S55x256_S1x1x55x256 : S55x256.ShapeCasts S1x1x55x256
  inb_S1x11x55x2048_S1x1x55x256_0_1_0_0 : ∀ a, (![0, 1, 0, 0] : Fin 4 → Nat) a + S1x1x55x256.size a ≤ S1x11x55x2048.size a
  inb_S1x11x55x2048_S1x1x55x256_0_2_0_0 : ∀ a, (![0, 2, 0, 0] : Fin 4 → Nat) a + S1x1x55x256.size a ≤ S1x11x55x2048.size a
  inb_S1x11x55x2048_S1x1x55x256_0_3_0_0 : ∀ a, (![0, 3, 0, 0] : Fin 4 → Nat) a + S1x1x55x256.size a ≤ S1x11x55x2048.size a
  inb_S1x11x55x2048_S1x1x55x256_0_4_0_0 : ∀ a, (![0, 4, 0, 0] : Fin 4 → Nat) a + S1x1x55x256.size a ≤ S1x11x55x2048.size a
  inb_S1x11x55x2048_S1x1x55x256_0_5_0_0 : ∀ a, (![0, 5, 0, 0] : Fin 4 → Nat) a + S1x1x55x256.size a ≤ S1x11x55x2048.size a
  inb_S1x11x55x2048_S1x1x55x256_0_6_0_0 : ∀ a, (![0, 6, 0, 0] : Fin 4 → Nat) a + S1x1x55x256.size a ≤ S1x11x55x2048.size a
  inb_S1x11x55x2048_S1x1x55x256_0_7_0_0 : ∀ a, (![0, 7, 0, 0] : Fin 4 → Nat) a + S1x1x55x256.size a ≤ S1x11x55x2048.size a
  inb_S1x11x55x2048_S1x1x55x256_0_8_0_0 : ∀ a, (![0, 8, 0, 0] : Fin 4 → Nat) a + S1x1x55x256.size a ≤ S1x11x55x2048.size a
  inb_S1x11x55x2048_S1x1x55x256_0_9_0_0 : ∀ a, (![0, 9, 0, 0] : Fin 4 → Nat) a + S1x1x55x256.size a ≤ S1x11x55x2048.size a
  inb_S1x11x55x2048_S1x1x55x256_0_10_0_0 : ∀ a, (![0, 10, 0, 0] : Fin 4 → Nat) a + S1x1x55x256.size a ≤ S1x11x55x2048.size a
  inb_S1x11x55x2048_S1x1x55x256_0_0_0_256 : ∀ a, (![0, 0, 0, 256] : Fin 4 → Nat) a + S1x1x55x256.size a ≤ S1x11x55x2048.size a
  inb_S1x11x55x2048_S1x1x55x256_0_1_0_256 : ∀ a, (![0, 1, 0, 256] : Fin 4 → Nat) a + S1x1x55x256.size a ≤ S1x11x55x2048.size a
  inb_S1x11x55x2048_S1x1x55x256_0_2_0_256 : ∀ a, (![0, 2, 0, 256] : Fin 4 → Nat) a + S1x1x55x256.size a ≤ S1x11x55x2048.size a
  inb_S1x11x55x2048_S1x1x55x256_0_3_0_256 : ∀ a, (![0, 3, 0, 256] : Fin 4 → Nat) a + S1x1x55x256.size a ≤ S1x11x55x2048.size a
  inb_S1x11x55x2048_S1x1x55x256_0_4_0_256 : ∀ a, (![0, 4, 0, 256] : Fin 4 → Nat) a + S1x1x55x256.size a ≤ S1x11x55x2048.size a
  inb_S1x11x55x2048_S1x1x55x256_0_5_0_256 : ∀ a, (![0, 5, 0, 256] : Fin 4 → Nat) a + S1x1x55x256.size a ≤ S1x11x55x2048.size a
  inb_S1x11x55x2048_S1x1x55x256_0_6_0_256 : ∀ a, (![0, 6, 0, 256] : Fin 4 → Nat) a + S1x1x55x256.size a ≤ S1x11x55x2048.size a
  inb_S1x11x55x2048_S1x1x55x256_0_7_0_256 : ∀ a, (![0, 7, 0, 256] : Fin 4 → Nat) a + S1x1x55x256.size a ≤ S1x11x55x2048.size a
  inb_S1x11x55x2048_S1x1x55x256_0_8_0_256 : ∀ a, (![0, 8, 0, 256] : Fin 4 → Nat) a + S1x1x55x256.size a ≤ S1x11x55x2048.size a
  inb_S1x11x55x2048_S1x1x55x256_0_9_0_256 : ∀ a, (![0, 9, 0, 256] : Fin 4 → Nat) a + S1x1x55x256.size a ≤ S1x11x55x2048.size a
  inb_S1x11x55x2048_S1x1x55x256_0_10_0_256 : ∀ a, (![0, 10, 0, 256] : Fin 4 → Nat) a + S1x1x55x256.size a ≤ S1x11x55x2048.size a
  inb_S1x11x55x2048_S1x1x55x256_0_0_0_512 : ∀ a, (![0, 0, 0, 512] : Fin 4 → Nat) a + S1x1x55x256.size a ≤ S1x11x55x2048.size a
  inb_S1x11x55x2048_S1x1x55x256_0_1_0_512 : ∀ a, (![0, 1, 0, 512] : Fin 4 → Nat) a + S1x1x55x256.size a ≤ S1x11x55x2048.size a
  inb_S1x11x55x2048_S1x1x55x256_0_2_0_512 : ∀ a, (![0, 2, 0, 512] : Fin 4 → Nat) a + S1x1x55x256.size a ≤ S1x11x55x2048.size a
  inb_S1x11x55x2048_S1x1x55x256_0_3_0_512 : ∀ a, (![0, 3, 0, 512] : Fin 4 → Nat) a + S1x1x55x256.size a ≤ S1x11x55x2048.size a
  inb_S1x11x55x2048_S1x1x55x256_0_4_0_512 : ∀ a, (![0, 4, 0, 512] : Fin 4 → Nat) a + S1x1x55x256.size a ≤ S1x11x55x2048.size a
  inb_S1x11x55x2048_S1x1x55x256_0_5_0_512 : ∀ a, (![0, 5, 0, 512] : Fin 4 → Nat) a + S1x1x55x256.size a ≤ S1x11x55x2048.size a
  inb_S1x11x55x2048_S1x1x55x256_0_6_0_512 : ∀ a, (![0, 6, 0, 512] : Fin 4 → Nat) a + S1x1x55x256.size a ≤ S1x11x55x2048.size a
  inb_S1x11x55x2048_S1x1x55x256_0_7_0_512 : ∀ a, (![0, 7, 0, 512] : Fin 4 → Nat) a + S1x1x55x256.size a ≤ S1x11x55x2048.size a
  inb_S1x11x55x2048_S1x1x55x256_0_8_0_512 : ∀ a, (![0, 8, 0, 512] : Fin 4 → Nat) a + S1x1x55x256.size a ≤ S1x11x55x2048.size a
  inb_S1x11x55x2048_S1x1x55x256_0_9_0_512 : ∀ a, (![0, 9, 0, 512] : Fin 4 → Nat) a + S1x1x55x256.size a ≤ S1x11x55x2048.size a
  inb_S1x11x55x2048_S1x1x55x256_0_10_0_512 : ∀ a, (![0, 10, 0, 512] : Fin 4 → Nat) a + S1x1x55x256.size a ≤ S1x11x55x2048.size a
  inb_S1x11x55x2048_S1x1x55x256_0_0_0_768 : ∀ a, (![0, 0, 0, 768] : Fin 4 → Nat) a + S1x1x55x256.size a ≤ S1x11x55x2048.size a
  inb_S1x11x55x2048_S1x1x55x256_0_1_0_768 : ∀ a, (![0, 1, 0, 768] : Fin 4 → Nat) a + S1x1x55x256.size a ≤ S1x11x55x2048.size a
  inb_S1x11x55x2048_S1x1x55x256_0_2_0_768 : ∀ a, (![0, 2, 0, 768] : Fin 4 → Nat) a + S1x1x55x256.size a ≤ S1x11x55x2048.size a
  inb_S1x11x55x2048_S1x1x55x256_0_3_0_768 : ∀ a, (![0, 3, 0, 768] : Fin 4 → Nat) a + S1x1x55x256.size a ≤ S1x11x55x2048.size a
  inb_S1x11x55x2048_S1x1x55x256_0_4_0_768 : ∀ a, (![0, 4, 0, 768] : Fin 4 → Nat) a + S1x1x55x256.size a ≤ S1x11x55x2048.size a
  inb_S1x11x55x2048_S1x1x55x256_0_5_0_768 : ∀ a, (![0, 5, 0, 768] : Fin 4 → Nat) a + S1x1x55x256.size a ≤ S1x11x55x2048.size a
  inb_S1x11x55x2048_S1x1x55x256_0_6_0_768 : ∀ a, (![0, 6, 0, 768] : Fin 4 → Nat) a + S1x1x55x256.size a ≤ S1x11x55x2048.size a
  inb_S1x11x55x2048_S1x1x55x256_0_7_0_768 : ∀ a, (![0, 7, 0, 768] : Fin 4 → Nat) a + S1x1x55x256.size a ≤ S1x11x55x2048.size a
  inb_S1x11x55x2048_S1x1x55x256_0_8_0_768 : ∀ a, (![0, 8, 0, 768] : Fin 4 → Nat) a + S1x1x55x256.size a ≤ S1x11x55x2048.size a
  inb_S1x11x55x2048_S1x1x55x256_0_9_0_768 : ∀ a, (![0, 9, 0, 768] : Fin 4 → Nat) a + S1x1x55x256.size a ≤ S1x11x55x2048.size a
  inb_S1x11x55x2048_S1x1x55x256_0_10_0_768 : ∀ a, (![0, 10, 0, 768] : Fin 4 → Nat) a + S1x1x55x256.size a ≤ S1x11x55x2048.size a
  inb_S1x11x55x2048_S1x1x55x256_0_0_0_1024 : ∀ a, (![0, 0, 0, 1024] : Fin 4 → Nat) a + S1x1x55x256.size a ≤ S1x11x55x2048.size a
  inb_S1x11x55x2048_S1x1x55x256_0_1_0_1024 : ∀ a, (![0, 1, 0, 1024] : Fin 4 → Nat) a + S1x1x55x256.size a ≤ S1x11x55x2048.size a
  inb_S1x11x55x2048_S1x1x55x256_0_2_0_1024 : ∀ a, (![0, 2, 0, 1024] : Fin 4 → Nat) a + S1x1x55x256.size a ≤ S1x11x55x2048.size a
  inb_S1x11x55x2048_S1x1x55x256_0_3_0_1024 : ∀ a, (![0, 3, 0, 1024] : Fin 4 → Nat) a + S1x1x55x256.size a ≤ S1x11x55x2048.size a
  inb_S1x11x55x2048_S1x1x55x256_0_4_0_1024 : ∀ a, (![0, 4, 0, 1024] : Fin 4 → Nat) a + S1x1x55x256.size a ≤ S1x11x55x2048.size a
  inb_S1x11x55x2048_S1x1x55x256_0_5_0_1024 : ∀ a, (![0, 5, 0, 1024] : Fin 4 → Nat) a + S1x1x55x256.size a ≤ S1x11x55x2048.size a
  inb_S1x11x55x2048_S1x1x55x256_0_6_0_1024 : ∀ a, (![0, 6, 0, 1024] : Fin 4 → Nat) a + S1x1x55x256.size a ≤ S1x11x55x2048.size a
  inb_S1x11x55x2048_S1x1x55x256_0_7_0_1024 : ∀ a, (![0, 7, 0, 1024] : Fin 4 → Nat) a + S1x1x55x256.size a ≤ S1x11x55x2048.size a
  inb_S1x11x55x2048_S1x1x55x256_0_8_0_1024 : ∀ a, (![0, 8, 0, 1024] : Fin 4 → Nat) a + S1x1x55x256.size a ≤ S1x11x55x2048.size a
  inb_S1x11x55x2048_S1x1x55x256_0_9_0_1024 : ∀ a, (![0, 9, 0, 1024] : Fin 4 → Nat) a + S1x1x55x256.size a ≤ S1x11x55x2048.size a
  inb_S1x11x55x2048_S1x1x55x256_0_10_0_1024 : ∀ a, (![0, 10, 0, 1024] : Fin 4 → Nat) a + S1x1x55x256.size a ≤ S1x11x55x2048.size a
  inb_S1x11x55x2048_S1x1x55x256_0_0_0_1280 : ∀ a, (![0, 0, 0, 1280] : Fin 4 → Nat) a + S1x1x55x256.size a ≤ S1x11x55x2048.size a
  inb_S1x11x55x2048_S1x1x55x256_0_1_0_1280 : ∀ a, (![0, 1, 0, 1280] : Fin 4 → Nat) a + S1x1x55x256.size a ≤ S1x11x55x2048.size a
  inb_S1x11x55x2048_S1x1x55x256_0_2_0_1280 : ∀ a, (![0, 2, 0, 1280] : Fin 4 → Nat) a + S1x1x55x256.size a ≤ S1x11x55x2048.size a
  inb_S1x11x55x2048_S1x1x55x256_0_3_0_1280 : ∀ a, (![0, 3, 0, 1280] : Fin 4 → Nat) a + S1x1x55x256.size a ≤ S1x11x55x2048.size a
  inb_S1x11x55x2048_S1x1x55x256_0_4_0_1280 : ∀ a, (![0, 4, 0, 1280] : Fin 4 → Nat) a + S1x1x55x256.size a ≤ S1x11x55x2048.size a
  inb_S1x11x55x2048_S1x1x55x256_0_5_0_1280 : ∀ a, (![0, 5, 0, 1280] : Fin 4 → Nat) a + S1x1x55x256.size a ≤ S1x11x55x2048.size a
  inb_S1x11x55x2048_S1x1x55x256_0_6_0_1280 : ∀ a, (![0, 6, 0, 1280] : Fin 4 → Nat) a + S1x1x55x256.size a ≤ S1x11x55x2048.size a
  inb_S1x11x55x2048_S1x1x55x256_0_7_0_1280 : ∀ a, (![0, 7, 0, 1280] : Fin 4 → Nat) a + S1x1x55x256.size a ≤ S1x11x55x2048.size a
  inb_S1x11x55x2048_S1x1x55x256_0_8_0_1280 : ∀ a, (![0, 8, 0, 1280] : Fin 4 → Nat) a + S1x1x55x256.size a ≤ S1x11x55x2048.size a
  inb_S1x11x55x2048_S1x1x55x256_0_9_0_1280 : ∀ a, (![0, 9, 0, 1280] : Fin 4 → Nat) a + S1x1x55x256.size a ≤ S1x11x55x2048.size a
  inb_S1x11x55x2048_S1x1x55x256_0_10_0_1280 : ∀ a, (![0, 10, 0, 1280] : Fin 4 → Nat) a + S1x1x55x256.size a ≤ S1x11x55x2048.size a
  inb_S1x11x55x2048_S1x1x55x256_0_0_0_1536 : ∀ a, (![0, 0, 0, 1536] : Fin 4 → Nat) a + S1x1x55x256.size a ≤ S1x11x55x2048.size a
  inb_S1x11x55x2048_S1x1x55x256_0_1_0_1536 : ∀ a, (![0, 1, 0, 1536] : Fin 4 → Nat) a + S1x1x55x256.size a ≤ S1x11x55x2048.size a
  inb_S1x11x55x2048_S1x1x55x256_0_2_0_1536 : ∀ a, (![0, 2, 0, 1536] : Fin 4 → Nat) a + S1x1x55x256.size a ≤ S1x11x55x2048.size a
  inb_S1x11x55x2048_S1x1x55x256_0_3_0_1536 : ∀ a, (![0, 3, 0, 1536] : Fin 4 → Nat) a + S1x1x55x256.size a ≤ S1x11x55x2048.size a
  inb_S1x11x55x2048_S1x1x55x256_0_4_0_1536 : ∀ a, (![0, 4, 0, 1536] : Fin 4 → Nat) a + S1x1x55x256.size a ≤ S1x11x55x2048.size a
  inb_S1x11x55x2048_S1x1x55x256_0_5_0_1536 : ∀ a, (![0, 5, 0, 1536] : Fin 4 → Nat) a + S1x1x55x256.size a ≤ S1x11x55x2048.size a
  inb_S1x11x55x2048_S1x1x55x256_0_6_0_1536 : ∀ a, (![0, 6, 0, 1536] : Fin 4 → Nat) a + S1x1x55x256.size a ≤ S1x11x55x2048.size a
  inb_S1x11x55x2048_S1x1x55x256_0_7_0_1536 : ∀ a, (![0, 7, 0, 1536] : Fin 4 → Nat) a + S1x1x55x256.size a ≤ S1x11x55x2048.size a
  inb_S1x11x55x2048_S1x1x55x256_0_8_0_1536 : ∀ a, (![0, 8, 0, 1536] : Fin 4 → Nat) a + S1x1x55x256.size a ≤ S1x11x55x2048.size a
  inb_S1x11x55x2048_S1x1x55x256_0_9_0_1536 : ∀ a, (![0, 9, 0, 1536] : Fin 4 → Nat) a + S1x1x55x256.size a ≤ S1x11x55x2048.size a
  inb_S1x11x55x2048_S1x1x55x256_0_10_0_1536 : ∀ a, (![0, 10, 0, 1536] : Fin 4 → Nat) a + S1x1x55x256.size a ≤ S1x11x55x2048.size a
  inb_S1x11x55x2048_S1x1x55x256_0_0_0_1792 : ∀ a, (![0, 0, 0, 1792] : Fin 4 → Nat) a + S1x1x55x256.size a ≤ S1x11x55x2048.size a
  inb_S1x11x55x2048_S1x1x55x256_0_1_0_1792 : ∀ a, (![0, 1, 0, 1792] : Fin 4 → Nat) a + S1x1x55x256.size a ≤ S1x11x55x2048.size a
  inb_S1x11x55x2048_S1x1x55x256_0_2_0_1792 : ∀ a, (![0, 2, 0, 1792] : Fin 4 → Nat) a + S1x1x55x256.size a ≤ S1x11x55x2048.size a
  inb_S1x11x55x2048_S1x1x55x256_0_3_0_1792 : ∀ a, (![0, 3, 0, 1792] : Fin 4 → Nat) a + S1x1x55x256.size a ≤ S1x11x55x2048.size a
  inb_S1x11x55x2048_S1x1x55x256_0_4_0_1792 : ∀ a, (![0, 4, 0, 1792] : Fin 4 → Nat) a + S1x1x55x256.size a ≤ S1x11x55x2048.size a
  inb_S1x11x55x2048_S1x1x55x256_0_5_0_1792 : ∀ a, (![0, 5, 0, 1792] : Fin 4 → Nat) a + S1x1x55x256.size a ≤ S1x11x55x2048.size a
  inb_S1x11x55x2048_S1x1x55x256_0_6_0_1792 : ∀ a, (![0, 6, 0, 1792] : Fin 4 → Nat) a + S1x1x55x256.size a ≤ S1x11x55x2048.size a
  inb_S1x11x55x2048_S1x1x55x256_0_7_0_1792 : ∀ a, (![0, 7, 0, 1792] : Fin 4 → Nat) a + S1x1x55x256.size a ≤ S1x11x55x2048.size a
  inb_S1x11x55x2048_S1x1x55x256_0_8_0_1792 : ∀ a, (![0, 8, 0, 1792] : Fin 4 → Nat) a + S1x1x55x256.size a ≤ S1x11x55x2048.size a
  inb_S1x11x55x2048_S1x1x55x256_0_9_0_1792 : ∀ a, (![0, 9, 0, 1792] : Fin 4 → Nat) a + S1x1x55x256.size a ≤ S1x11x55x2048.size a
  inb_S1x11x55x2048_S1x1x55x256_0_10_0_1792 : ∀ a, (![0, 10, 0, 1792] : Fin 4 → Nat) a + S1x1x55x256.size a ≤ S1x11x55x2048.size a
  shapeCasts_S16x55x55x2048_S16x3025x2048 : S16x55x55x2048.ShapeCasts S16x3025x2048
  hrank0 : 0 < grid0.rank
  k0_off1_inb : ∀ i : grid0.Coords, ∀ (r₁ : Fin 4) (r₂ : Fin 11), ∀ a, (k0_off1 i (BitVec.ofNat 32 r₁.val) (BitVec.ofNat 32 (2 * r₂.val))) a + S1x1x55x256.size a ≤ S1x112x56x256.size a
  k0_off2_inb : ∀ i : grid0.Coords, ∀ (r₁ : Fin 4) (r₂ : Fin 11), ∀ a, (k0_off2 i (BitVec.ofNat 32 r₁.val) (BitVec.ofNat 32 (2 * r₂.val))) a + S1x1x55x256.size a ≤ S1x112x56x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x112x56x256.size a ≤ S16x112x56x256.size a
  hwx0_0 : ∀ i : grid0.Coords, EltTy.bits .f32 = 32 ∨ (Rect.block (s := S16x112x56x256) S1x112x56x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x11x55x2048.size a ≤ S16x55x55x2048.size a
  hwx0_1 : ∀ i : grid0.Coords, EltTy.bits .f32 = 32 ∨ (Rect.block (s := S16x55x55x2048) S1x11x55x2048.size (cc0_transform_1 i) (hinb0_1 i)).WholeWords (EltTy.packing .f32)

variable [Facts₀]

abbrev win0_0 : Pipeline.Window sig grid0 :=
  Pipeline.Window.ofSpec (Memref.whole main_v0) S1x112x56x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x11x55x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x112x112x128 : Shape := ⟨4, ![16, 112, 112, 128]⟩
abbrev S55 : Shape := ⟨1, ![55]⟩
abbrev S55x1 : Shape := ⟨2, ![55, 1]⟩
abbrev S_ : Shape := ⟨0, ![]⟩
abbrev S4 : Shape := ⟨1, ![4]⟩
abbrev S1x4 : Shape := ⟨2, ![1, 4]⟩
abbrev S55x4 : Shape := ⟨2, ![55, 4]⟩
abbrev S220 : Shape := ⟨1, ![220]⟩
abbrev S220x1 : Shape := ⟨2, ![220, 1]⟩
abbrev S1 : Shape := ⟨1, ![1]⟩
abbrev S1x1 : Shape := ⟨2, ![1, 1]⟩
abbrev S16x220x112x128 : Shape := ⟨4, ![16, 220, 112, 128]⟩
abbrev S16x220x220x128 : Shape := ⟨4, ![16, 220, 220, 128]⟩
abbrev S16x55x4x55x4x128 : Shape := ⟨6, ![16, 55, 4, 55, 4, 128]⟩
abbrev S16x55x55x4x4x128 : Shape := ⟨6, ![16, 55, 55, 4, 4, 128]⟩
abbrev S16x3025x2048 : Shape := ⟨3, ![16, 3025, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16x112x112x128, .f32⟩
  | .hbm, ⟨1, _⟩ => ⟨S55, .i32⟩
  | .hbm, ⟨2, _⟩ => ⟨S55x1, .i32⟩
  | .hbm, ⟨3, _⟩ => ⟨S_, .i32⟩
  | .hbm, ⟨4, _⟩ => ⟨S55x1, .i32⟩
  | .hbm, ⟨5, _⟩ => ⟨S55x1, .i32⟩
  | .hbm, ⟨6, _⟩ => ⟨S4, .i32⟩
  | .hbm, ⟨7, _⟩ => ⟨S1x4, .i32⟩
  | .hbm, ⟨8, _⟩ => ⟨S55x4, .i32⟩
  | .hbm, ⟨9, _⟩ => ⟨S55x4, .i32⟩
  | .hbm, ⟨10, _⟩ => ⟨S55x4, .i32⟩
  | .hbm, ⟨11, _⟩ => ⟨S220, .i32⟩
  | .hbm, ⟨12, _⟩ => ⟨S55, .i32⟩
  | .hbm, ⟨13, _⟩ => ⟨S55x1, .i32⟩
  | .hbm, ⟨14, _⟩ => ⟨S_, .i32⟩
  | .hbm, ⟨15, _⟩ => ⟨S55x1, .i32⟩
  | .hbm, ⟨16, _⟩ => ⟨S55x1, .i32⟩
  | .hbm, ⟨17, _⟩ => ⟨S4, .i32⟩
  | .hbm, ⟨18, _⟩ => ⟨S1x4, .i32⟩
  | .hbm, ⟨19, _⟩ => ⟨S55x4, .i32⟩
  | .hbm, ⟨20, _⟩ => ⟨S55x4, .i32⟩
  | .hbm, ⟨21, _⟩ => ⟨S55x4, .i32⟩
  | .hbm, ⟨22, _⟩ => ⟨S220, .i32⟩
  | .hbm, ⟨23, _⟩ => ⟨S_, .i32⟩
  | .hbm, ⟨24, _⟩ => ⟨S220, .i32⟩
  | .hbm, ⟨25, _⟩ => ⟨S220, .i1⟩
  | .hbm, ⟨26, _⟩ => ⟨S_, .i32⟩
  | .hbm, ⟨27, _⟩ => ⟨S220, .i32⟩
  | .hbm, ⟨28, _⟩ => ⟨S220, .i32⟩
  | .hbm, ⟨29, _⟩ => ⟨S220, .i32⟩
  | .hbm, ⟨30, _⟩ => ⟨S220x1, .i32⟩
  | .hbm, ⟨31, _⟩ => ⟨S1, .i32⟩
  | .hbm, ⟨32, _⟩ => ⟨S_, .i32⟩
  | .hbm, ⟨33, _⟩ => ⟨S220x1, .i32⟩
  | .hbm, ⟨34, _⟩ => ⟨S220x1, .i1⟩
  | .hbm, ⟨35, _⟩ => ⟨S1x1, .i32⟩
  | .hbm, ⟨36, _⟩ => ⟨S220x1, .i32⟩
  | .hbm, ⟨37, _⟩ => ⟨S220x1, .i1⟩
  | .hbm, ⟨38, _⟩ => ⟨S220x1, .i1⟩
  | .hbm, ⟨39, _⟩ => ⟨S_, .i1⟩
  | .hbm, ⟨40, _⟩ => ⟨S220, .i1⟩
  | .hbm, ⟨41, _⟩ => ⟨S16x220x112x128, .f32⟩
  | .hbm, ⟨42, _⟩ => ⟨S16x220x112x128, .i1⟩
  | .hbm, ⟨43, _⟩ => ⟨S_, .f32⟩
  | .hbm, ⟨44, _⟩ => ⟨S16x220x112x128, .f32⟩
  | .hbm, ⟨45, _⟩ => ⟨S16x220x112x128, .f32⟩
  | .hbm, ⟨46, _⟩ => ⟨S_, .i32⟩
  | .hbm, ⟨47, _⟩ => ⟨S220, .i32⟩
  | .hbm, ⟨48, _⟩ => ⟨S220, .i1⟩
  | .hbm, ⟨49, _⟩ => ⟨S_, .i32⟩
  | .hbm, ⟨50, _⟩ => ⟨S220, .i32⟩
  | .hbm, ⟨51, _⟩ => ⟨S220, .i32⟩
  | .hbm, ⟨52, _⟩ => ⟨S220, .i32⟩
  | .hbm, ⟨53, _⟩ => ⟨S220x1, .i32⟩
  | .hbm, ⟨54, _⟩ => ⟨S1, .i32⟩
  | .hbm, ⟨55, _⟩ => ⟨S_, .i32⟩
  | .hbm, ⟨56, _⟩ => ⟨S220x1, .i32⟩
  | .hbm, ⟨57, _⟩ => ⟨S220x1, .i1⟩
  | .hbm, ⟨58, _⟩ => ⟨S1x1, .i32⟩
  | .hbm, ⟨59, _⟩ => ⟨S220x1, .i32⟩
  | .hbm, ⟨60, _⟩ => ⟨S220x1, .i1⟩
  | .hbm, ⟨61, _⟩ => ⟨S220x1, .i1⟩
  | .hbm, ⟨62, _⟩ => ⟨S_, .i1⟩
  | .hbm, ⟨63, _⟩ => ⟨S220, .i1⟩
  | .hbm, ⟨64, _⟩ => ⟨S16x220x220x128, .f32⟩
  | .hbm, ⟨65, _⟩ => ⟨S16x220x220x128, .i1⟩
  | .hbm, ⟨66, _⟩ => ⟨S_, .f32⟩
  | .hbm, ⟨67, _⟩ => ⟨S16x220x220x128, .f32⟩
  | .hbm, ⟨68, _⟩ => ⟨S16x220x220x128, .f32⟩
  | .hbm, ⟨69, _⟩ => ⟨S16x55x4x55x4x128, .f32⟩
  | .hbm, ⟨70, _⟩ => ⟨S16x55x55x4x4x128, .f32⟩
  | .hbm, ⟨71, _⟩ => ⟨S16x3025x2048, .f32⟩
  | _, _ => ⟨S16x112x112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v20 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩

abbrev nD : Nat := 1
abbrev τ : Topo := Topo.v7x

variable {F : FTy → Type} [FloatOps F]

class Facts₀ : Prop where
  bcast_S55_S55x1_0 : S55.BroadcastsInDim S55x1 (![0] : Fin 1 → Fin S55x1.rank)
  bcast_S_S55x1 : S_.BroadcastsInDim S55x1 (![] : Fin 0 → Fin S55x1.rank)
  bcast_S4_S1x4_1 : S4.BroadcastsInDim S1x4 (![1] : Fin 1 → Fin S1x4.rank)
  bcast_S55x1_S55x4_0_1 : S55x1.BroadcastsInDim S55x4 (![0, 1] : Fin 2 → Fin S55x4.rank)
  bcast_S1x4_S55x4_0_1 : S1x4.BroadcastsInDim S55x4 (![0, 1] : Fin 2 → Fin S55x4.rank)
  shapeCasts_S55x4_S220 : S55x4.ShapeCasts S220
  bcast_S_S220 : S_.BroadcastsInDim S220 (![] : Fin 0 → Fin S220.rank)
  bcast_S220_S220x1_0 : S220.BroadcastsInDim S220x1 (![0] : Fin 1 → Fin S220x1.rank)
  bcast_S_S220x1 : S_.BroadcastsInDim S220x1 (![] : Fin 0 → Fin S220x1.rank)
  bcast_S1_S1x1_1 : S1.BroadcastsInDim S1x1 (![1] : Fin 1 → Fin S1x1.rank)
  bcast_S1x1_S220x1_0_1 : S1x1.BroadcastsInDim S220x1 (![0, 1] : Fin 2 → Fin S220x1.rank)
  reducesTo_S220x1_S220_d1 : S220x1.ReducesTo [1] S220
  h_S_ : 0 < S_.numel
  bcast_S220_S16x220x112x128_1 : S220.BroadcastsInDim S16x220x112x128 (![1] : Fin 1 → Fin S16x220x112x128.rank)
  bcast_S_S16x220x112x128 : S_.BroadcastsInDim S16x220x112x128 (![] : Fin 0 → Fin S16x220x112x128.rank)
  bcast_S220_S16x220x220x128_2 : S220.BroadcastsInDim S16x220x220x128 (![2] : Fin 1 → Fin S16x220x220x128.rank)
  bcast_S_S16x220x220x128 : S_.BroadcastsInDim S16x220x220x128 (![] : Fin 0 → Fin S16x220x220x128.rank)
  shapeCasts_S16x220x220x128_S16x55x4x55x4x128 : S16x220x220x128.ShapeCasts S16x55x4x55x4x128
  transposes_S16x55x4x55x4x128_S16x55x55x4x4x128_0_1_3_2_4_5 : S16x55x4x55x4x128.Transposes [0, 1, 3, 2, 4, 5] S16x55x55x4x4x128
  shapeCasts_S16x55x55x4x4x128_S16x3025x2048 : S16x55x55x4x4x128.ShapeCasts S16x3025x2048
  gather_S16x112x112x128_S220x1_S16x220x112x128_023_1_n_n_1_1_161112128_wf : GatherDims.WF S16x112x112x128 S220x1 S16x220x112x128 [0, 2, 3] [1] [] [1] [] 1 ![16, 1, 112, 128]
  gather_S16x220x112x128_S220x1_S16x220x220x128_013_2_n_n_2_1_162201128_wf : GatherDims.WF S16x220x112x128 S220x1 S16x220x220x128 [0, 1, 3] [2] [] [2] [] 1 ![16, 220, 1, 128]

variable [Facts₀]

def gather_S16x112x112x128_S220x1_S16x220x112x128_023_1_n_n_1_1_161112128 : GatherDims S16x112x112x128 S220x1 S16x220x112x128 where
  offsetDims := [0, 2, 3]
  collapsedSliceDims := [1]
  operandBatchingDims := []
  startIndicesBatchingDims := []
  startIndexMap := [1]
  indexVectorDim := 1
  sliceSizes := ![16, 1, 112, 128]
  wf := gather_S16x112x112x128_S220x1_S16x220x112x128_023_1_n_n_1_1_161112128_wf
def gather_S16x220x112x128_S220x1_S16x220x220x128_013_2_n_n_2_1_162201128 : GatherDims S16x220x112x128 S220x1 S16x220x220x128 where
  offsetDims := [0, 1, 3]
  collapsedSliceDims := [2]
  operandBatchingDims := []
  startIndicesBatchingDims := []
  startIndexMap := [2]
  indexVectorDim := 1
  sliceSizes := ![16, 220, 1, 128]
  wf := gather_S16x220x112x128_S220x1_S16x220x220x128_013_2_n_n_2_1_162201128_wf

class Facts : Prop extends Facts₀ where

variable [Facts]
-- ==== Proof.KBlock.lean ====
/-
  What one grid point leaves in its output block. At point (b, i) the body copies, for each offset c0 < 4 along w,
  each half j < 2 of the window along h and each of the 11 window positions t of this block, the 55 × 256 tile
  [22·i + c0 + 2·t, j … j + 54, 0 … 255] of the image (h paired into 56 rows of 256) to the tile
  [t, 0 … 54, (4·c0 + 2·j)·128 … + 255] of the block. The 88 tiles partition the [11, 55, 2048] block, the value copied is
  unchanged by the two shape casts around it, and so the block is one function of the image.
-/
import proofs.«426292_j19344532701687_3_alg».proof.Proof.Gen.KernelIdeal.Frame
import Idealize.ShloMosaic.Lib.ValueIdx
import Idealize.ShloMosaic.Lib.Pipeline.Value

noncomputable section

namespace Cert.KernelIdeal.Patch

open Idealize.ShloMosaic Idealize.ShloMosaic.ValueIdx Idealize.SL.Sem Cert.KernelIdeal Cert.KernelIdeal.Gen
open Idealize.ShloMosaic.Tactic

variable {F : FTy → Type} [FloatOps F]

/-- Block `ib` of an image's patch rows as a function of the image with h paired: entry (t, v, f) is the paired image at
    row 22·ib + f / 512 + 2·t, paired column f / 256 % 2 + v, lane f % 256. -/
def blockOf {α : Type} (ib : Fin 5) (x0 : S1x112x56x256.Idx → α) : S1x11x55x2048.Idx → α := fun y =>
  have h1 : (y 1).val < 11 := (y 1).isLt
  have h2 : (y 2).val < 55 := (y 2).isLt
  have h3 : (y 3).val < 2048 := (y 3).isLt
  have hb : ib.val < 5 := ib.isLt
  x0 (ix4 (0 : Fin 1) (⟨22 * ib.val + (y 3).val / 512 + 2 * (y 1).val, by omega⟩ : Fin 112)
    (⟨(y 3).val / 256 % 2 + (y 2).val, by omega⟩ : Fin 56) (⟨(y 3).val % 256, by omega⟩ : Fin 256))

/-- One copied tile. A 55 × 256 tile of the paired image taken at row r and paired column j, cast to [55, 256] and back, is
    the tile of block b at window position t and lane offset q, when q is a multiple of 256, r = 22·b + q / 512 + 2·t
    and j = q / 256 % 2: the two casts cancel, and along each axis the block's source coordinate at t, v, q + l is
    the tile's own coordinate r, j + v, l. -/
theorem tile_eq {Val : EltTy → Type} {e : EltTy} {b : ℕ} (hb : b < 5) (x0 : S1x112x56x256.Idx → Val e)
    {off : Fin 4 → ℕ} [co : ClosedOff off] (inb : ∀ a, off a + S1x1x55x256.size a ≤ S1x112x56x256.size a)
    {t q r j : ℕ} (hform : co.form = ![0, r, j, 0])
    (inb' : ∀ a, (![0, t, 0, q] : Fin 4 → ℕ) a + S1x1x55x256.size a ≤ S1x11x55x2048.size a)
    (hq : q % 256 = 0) (hr : r = 22 * b + q / 512 + 2 * t) (hj : j = q / 256 % 2)
    (h1 : S1x1x55x256.ShapeCasts S55x256) (h2 : S55x256.ShapeCasts S1x1x55x256)
    (x : S1x1x55x256.Idx) :
    shapeCast S1x1x55x256 (shapeCast S55x256 (View.ld x0 (Rect.unit (s := S1x112x56x256) off S1x1x55x256.size inb)) h1) h2 x
      = blockOf ⟨b, hb⟩ x0 ((Rect.unit (s := S1x11x55x2048) ![0, t, 0, q] S1x1x55x256.size inb').emb x) := by
  rw [shapeCast_shapeCast]
  have hoff : off = ![0, r, j, 0] := co.eq.trans hform
  subst hoff
  have hx0 : (x 0).val < 1 := (x 0).isLt
  have hx1 : (x 1).val < 1 := (x 1).isLt
  have hx2 : (x 2).val < 55 := (x 2).isLt
  have hx3 : (x 3).val < 256 := (x 3).isLt
  unfold blockOf
  show x0 _ = x0 _
  refine congrArg x0 (funext fun a => Fin.ext ?_)
  match a with
  | ⟨0, _⟩ =>
    show 0 + 1 * (x 0).val = 0
    omega
  | ⟨1, _⟩ =>
    show r + 1 * (x 1).val = 22 * b + (q + 1 * (x 3).val) / 512 + 2 * (t + 1 * (x 1).val)
    omega
  | ⟨2, _⟩ =>
    show j + 1 * (x 2).val = (q + 1 * (x 3).val) / 256 % 2 + (0 + 1 * (x 2).val)
    omega
  | ⟨3, _⟩ =>
    show 0 + 1 * (x 3).val = (q + 1 * (x 3).val) % 256
    omega

set_option maxRecDepth 16384 in
/-- What the body leaves in the output block at grid point `i`, whatever memrefs it is called with. -/
theorem out_block (c : Dev nD) (i : grid0.Coords) (arg2 : Memref sig .tc .vmem S1x112x56x256 .f32) (harg2 : arg2.IsWhole)
    (arg3 : Memref sig .tc .vmem S1x11x55x2048 .f32) (harg3 : arg3.IsWhole) (x0 : Vec F S1x112x56x256 .f32) :
    out0_A_1 c i arg2 harg2 arg3 harg3 x0 = blockOf (⟨(i 1).val, (i 1).isLt⟩ : Fin 5) x0 := by
  unfold out0_A_1
  rw [View.read_writes_eq_canon _ _ _ (cover0_A_1 c i arg2 harg2 arg3 harg3 x0)]
  funext y
  -- the 88 tiles cover the block, so it is enough that each tile's payload is the block function on its rectangle
  refine View.canon_apply_of_pieces (blockOf _ x0) _ ?_ y (cover0_A_1 c i arg2 harg2 arg3 harg3 x0 y)
  unfold kernelRun0_A
  dsimp only
  sl_unfold_run_names
  simp only [View.readAt_eq_ld, harg2.read_unread]
  repeat' (refine List.forall_mem_cons.mpr ⟨?_, ?_⟩)
  all_goals first
    | exact fun _ h => absurd h List.not_mem_nil
    | (dsimp only
       intro x
       exact tile_eq (Val := Elt F) (e := .f32) (i 1).isLt x0 _ (by exact rfl) _ (by omega) (by omega) (by omega) _ _ x)

end Cert.KernelIdeal.Patch

end
-- ==== Proof.Spec.lean ====
/-
  The function both programs compute. The input is an image batch x[b, w, h, d] of extents [16, 112, 112, 128]. From
  it every 4 × 4 window at stride 2 is cut out: 55 window positions along w and 55 along h. Window (p, v) of image b is
  flattened to one row of 4 · 4 · 128 = 2048 entries, entry (4·c0 + c1)·128 + d of the row being x[b, 2p + c0, 2v + c1, d],
  and the rows are listed as row 55·p + v of a [16, 3025, 2048] array. No arithmetic is done on the entries: the result
  is the input read through the index map `src`.
-/
import Idealize.ShloMosaic.PureOps.Values
import Idealize.ShloMosaic.Lib.ValueIdx

namespace Cert.Patches

open Idealize.ShloMosaic Idealize.ShloMosaic.ValueIdx

/-- The image batch's shape [b, w, h, d]. -/
abbrev SX : Shape := ⟨4, ![16, 112, 112, 128]⟩
/-- The patch array's shape [b, 55·p + v, (4·c0 + c1)·128 + d]. -/
abbrev SY : Shape := ⟨3, ![16, 3025, 2048]⟩

/-- Where entry (b, n, f) of the patch array is read from: with p = n / 55, v = n % 55, c0 = f / 512,
    c1 = f / 128 % 4 and d = f % 128 it is (b, 2p + c0, 2v + c1, d). The largest row read is 2·54 + 3 = 111. -/
def src (i : SY.Idx) : SX.Idx :=
  have h0 : (i 0).val < 16 := (i 0).isLt
  have h1 : (i 1).val < 3025 := (i 1).isLt
  have h2 : (i 2).val < 2048 := (i 2).isLt
  ix4 (⟨(i 0).val, h0⟩ : Fin 16)
    (⟨2 * ((i 1).val / 55) + (i 2).val / 512, by omega⟩ : Fin 112)
    (⟨2 * ((i 1).val % 55) + (i 2).val / 128 % 4, by omega⟩ : Fin 112)
    (⟨(i 2).val % 128, by omega⟩ : Fin 128)

/-- The patch array of an image batch: the batch read through `src`. -/
def patches {α : Type} (x : SX.Idx → α) : SY.Idx → α := fun i => x (src i)

theorem patches_apply {α : Type} (x : SX.Idx → α) (i : SY.Idx) : patches x i = x (src i) := rfl

end Cert.Patches
-- ==== Proof.KArray.lean ====
/-
  From blocks to the array. The image enters the region with h paired: entry (b, w, h2, l) of the [16, 112, 56, 256] array
  is x[b, w, 2·h2 + l / 128, l % 128]. Grid point (b, i) reads image b whole and writes block (b, i) of the [16, 55, 55, 2048]
  result, window positions 11·i … 11·i + 10 along w; the 80 blocks tile the result, so after the region the result is
  one function of the image: entry (b, p, v, f) is x[b, 2·p + f / 512, 2·v + f / 128 % 4, f % 128].
-/
import proofs.«426292_j19344532701687_3_alg».proof.Proof.KBlock
import proofs.«426292_j19344532701687_3_alg».proof.Proof.Spec
import Idealize.ShloMosaic.Lib.Pipeline.Value

noncomputable section

namespace Cert.KernelIdeal.Patch

open Idealize.ShloMosaic Idealize.ShloMosaic.ValueIdx Idealize.ShloMosaic.TcCoe Idealize.SL.Sem Cert.KernelIdeal Cert.KernelIdeal.Gen

variable {F : FTy → Type} [FloatOps F]

variable (m : (ℓ : Loc nD τ sig) → Buf (Elt F) ℓ)

/-- The region's result as a function of the image batch: entry (b, p, v, f) is x[b, 2·p + f / 512, 2·v + f / 128 % 4, f % 128]. -/
def windows {α : Type} (x : Cert.Patches.SX.Idx → α) : S16x55x55x2048.Idx → α := fun j =>
  have h0 : (j 0).val < 16 := (j 0).isLt
  have h1 : (j 1).val < 55 := (j 1).isLt
  have h2 : (j 2).val < 55 := (j 2).isLt
  have h3 : (j 3).val < 2048 := (j 3).isLt
  x (ix4 (⟨(j 0).val, h0⟩ : Fin 16) (⟨2 * (j 1).val + (j 3).val / 512, by omega⟩ : Fin 112)
    (⟨2 * (j 2).val + (j 3).val / 128 % 4, by omega⟩ : Fin 112) (⟨(j 3).val % 128, by omega⟩ : Fin 128))

/-! ## The image as the region finds it -/

/-- The region finds the image with h paired: the staged array is the launch image recast to [16, 112, 56, 256]. -/
private theorem paired_eq (c : Dev nD) :
    (V m c main_v0 : S16x112x56x256.Idx → Elt F .f32)
      = shapeCast S16x112x56x256 (m ((c.tc : Thread nD τ).loc main_arg0)) shapeCasts_S16x112x112x128_S16x112x56x256 := by
  show StableHlo.after hostOps0 (fun b => m (c, b)) (Proc.devRef .tc main_v0) = _
  after_results
  rfl

/-- Entry (b, w, h2, l) of the paired image is x[b, w, 2·h2 + l / 128, l % 128]: both sit at the same row-major
    position, ((b·112 + w)·56 + h2)·256 + l = ((b·112 + w)·112 + 2·h2 + l / 128)·128 + l % 128. -/
private theorem paired_apply (c : Dev nD) (b : Fin 16) (w : Fin 112) (h2 : Fin 56) (l : Fin 256) :
    (V m c main_v0 : S16x112x56x256.Idx → Elt F .f32) (ix4 b w h2 l)
      = m ((c.tc : Thread nD τ).loc main_arg0)
          (ix4 b w (⟨2 * h2.val + l.val / 128, by have := h2.isLt; have := l.isLt; omega⟩ : Fin 112)
            (⟨l.val % 128, by omega⟩ : Fin 128)) := by
  rw [paired_eq]
  refine shapeCast_apply _ _ _ _ ?_
  show (S16x112x112x128.rowMajor _).val = (S16x112x56x256.rowMajor _).val
  rw [Shape.rowMajor_val_four, Shape.rowMajor_val_four]
  have hb := b.isLt; have hw := w.isLt; have hh := h2.isLt; have hl := l.isLt
  show ((b.val * 112 + w.val) * 112 + (2 * h2.val + l.val / 128)) * 128 + l.val % 128
      = ((b.val * 112 + w.val) * 56 + h2.val) * 256 + l.val
  omega

/-! ## The blocks at a grid point -/

/-- The input block at a point is the paired image read through the point's block. -/
private theorem inBlock_apply (c : Dev nD) (t : Fin cfg0.N) (y : S1x112x56x256.Idx) :
    (iblk m c 0 t : S1x112x56x256.Idx → Elt F .f32) y
      = (V m c main_v0 : S16x112x56x256.Idx → Elt F .f32) (((cfg0.win 0).blk t).view.emb y) := by
  unfold iblk
  rfl

/-- The index maps over the grid: point t is grid point (t / 5, t % 5); the input block index is (t / 5, 0, 0, 0) and
    the output block index (t / 5, t % 5, 0, 0). -/
private theorem gridMaps : ∀ t : Fin cfg0.N,
    win0_0.index t (0 : Fin 4) = t.val / 5 ∧ win0_0.index t (1 : Fin 4) = 0
    ∧ win0_0.index t (2 : Fin 4) = 0 ∧ win0_0.index t (3 : Fin 4) = 0
    ∧ win0_1.index t (0 : Fin 4) = t.val / 5 ∧ win0_1.index t (1 : Fin 4) = t.val % 5
    ∧ win0_1.index t (2 : Fin 4) = 0 ∧ win0_1.index t (3 : Fin 4) = 0
    ∧ ((grid0.coords t) (1 : Fin 2)).val = t.val % 5 :=
  (by decide +kernel : ∀ t : Fin grid0.N, _)

/-- The grid has 80 points. -/
private theorem point_lt (t : Fin cfg0.N) : t.val < 80 := lt_of_lt_of_eq t.isLt N_0

/-- The input block at point t is image t / 5 whole, with h paired: its entry (0, w, h2, l) is
    x[t / 5, w, 2·h2 + l / 128, l % 128]. A block's coordinate on an axis is block index × block extent + the
    coordinate inside the block. -/
private theorem inBlock_at (c : Dev nD) (t : Fin cfg0.N) (w : Fin 112) (h2 : Fin 56) (l : Fin 256) :
    (iblk m c 0 t : S1x112x56x256.Idx → Elt F .f32) (ix4 (0 : Fin 1) w h2 l)
      = m ((c.tc : Thread nD τ).loc main_arg0)
          (ix4 (⟨t.val / 5, by have := point_lt t; omega⟩ : Fin 16) w
            (⟨2 * h2.val + l.val / 128, by have := h2.isLt; have := l.isLt; omega⟩ : Fin 112)
            (⟨l.val % 128, by omega⟩ : Fin 128)) := by
  rw [inBlock_apply]
  refine Eq.trans ?_ (paired_apply m c (⟨t.val / 5, by have := point_lt t; omega⟩ : Fin 16) w h2 l)
  obtain ⟨e0, e1, e2, e3, -⟩ := gridMaps t
  refine congrArg (V m c main_v0 : S16x112x56x256.Idx → Elt F .f32) ?_
  funext a; apply Fin.ext
  match a with
  | ⟨0, _⟩ => show win0_0.index t (0 : Fin 4) * 1 + 1 * 0 = t.val / 5; omega
  | ⟨1, _⟩ => show win0_0.index t (1 : Fin 4) * 112 + 1 * w.val = w.val; omega
  | ⟨2, _⟩ => show win0_0.index t (2 : Fin 4) * 56 + 1 * h2.val = h2.val; omega
  | ⟨3, _⟩ => show win0_0.index t (3 : Fin 4) * 256 + 1 * l.val = l.val; omega

/-- What point t writes back is block t of the windows of the launch image. Entry (0, y1, v, f) of the block is entry
    (t / 5, p, v, f) of the result with p = 11·(t % 5) + y1. The window row 2·p + f / 512 is 22·(t % 5) + f / 512 + 2·y1;
    the window column 2·(f / 256 % 2 + v) + (f % 256) / 128 is 2·v + f / 128 % 4; the lane (f % 256) % 128 is f % 128. -/
private theorem writeBack_eq (c : Dev nD) (t : Fin cfg0.N) :
    (dats m 0 c).flushed 1 t
      = ((cfg0.win 1).blk t).view.read (Elt F) (windows (m ((c.tc : Thread nD τ).loc main_arg0))) := by
  show (cfg0.win 1).cut (grid0.coords t) ((dats m 0 c).after 1 t) = _
  rw [after0_1]
  unfold outsAt0
  rw [out_block]
  refine funext fun (y : S1x11x55x2048.Idx) => ?_
  show blockOf (⟨(grid0.coords t 1).val, (grid0.coords t 1).isLt⟩ : Fin 5)
        (iblk m c 0 t : S1x112x56x256.Idx → Elt F .f32) y
      = windows (m ((c.tc : Thread nD τ).loc main_arg0)) (((cfg0.win 1).blk t).view.emb y)
  unfold blockOf windows
  dsimp only
  rw [inBlock_at]
  obtain ⟨-, -, -, -, f0, f1, f2, f3, g⟩ := gridMaps t
  have hy0 : (y 0).val < 1 := (y 0).isLt
  have hy1 : (y 1).val < 11 := (y 1).isLt
  have hy2 : (y 2).val < 55 := (y 2).isLt
  have hy3 : (y 3).val < 2048 := (y 3).isLt
  refine congrArg (m ((c.tc : Thread nD τ).loc main_arg0)) ?_
  funext a; apply Fin.ext
  match a with
  | ⟨0, _⟩ =>
    show t.val / 5 = win0_1.index t (0 : Fin 4) * 1 + 1 * (y 0).val
    omega
  | ⟨1, _⟩ =>
    show 22 * (grid0.coords t 1).val + (y 3).val / 512 + 2 * (y 1).val
      = 2 * (win0_1.index t (1 : Fin 4) * 11 + 1 * (y 1).val)
        + (win0_1.index t (3 : Fin 4) * 2048 + 1 * (y 3).val) / 512
    omega
  | ⟨2, _⟩ =>
    show 2 * ((y 3).val / 256 % 2 + (y 2).val) + (y 3).val % 256 / 128
      = 2 * (win0_1.index t (2 : Fin 4) * 55 + 1 * (y 2).val)
        + (win0_1.index t (3 : Fin 4) * 2048 + 1 * (y 3).val) / 128 % 4
    omega
  | ⟨3, _⟩ =>
    show (y 3).val % 256 % 128 = (win0_1.index t (3 : Fin 4) * 2048 + 1 * (y 3).val) % 128
    omega

/-! ## The blocks tile the result -/

/-- An index of the result lies in point t's block iff each coordinate lies in the block's range on its axis. -/
private theorem mem_outBlock (t : Fin cfg0.N) (i : S16x55x55x2048.Idx) :
    i ∈ ((cfg0.win 1).blk t).view.set ↔ ∀ a : Fin 4, win0_1.index t a * S1x11x55x2048.size a ≤ (i a).val
      ∧ (i a).val < win0_1.index t a * S1x11x55x2048.size a + S1x11x55x2048.size a := by
  show i ∈ ((View.whole main_v1).slice (win0_1.rect t)).set ↔ _
  rw [View.set_slice_whole, Rect.mem_set_unit]
  exact Iff.rfl

/-- The 80 blocks tile the result: entry (b, p, v, f) lies in the block of point 5·b + p / 11, whose rows are
    11·(p / 11) … 11·(p / 11) + 10. -/
private theorem blocks_tile (i : S16x55x55x2048.Idx) :
    ∃ t : Fin cfg0.N, (cfg0.win 1).flush t = true ∧ i ∈ ((cfg0.win 1).blk t).view.set := by
  have h0 : (i 0).val < 16 := (i 0).isLt
  have h1 : (i 1).val < 55 := (i 1).isLt
  have h2 : (i 2).val < 55 := (i 2).isLt
  have h3 : (i 3).val < 2048 := (i 3).isLt
  obtain ⟨t, ht⟩ : ∃ t : Fin cfg0.N, t.val = 5 * (i 0).val + (i 1).val / 11 :=
    ⟨⟨5 * (i 0).val + (i 1).val / 11, lt_of_lt_of_eq (by omega : 5 * (i 0).val + (i 1).val / 11 < 80) N_0.symm⟩, rfl⟩
  refine ⟨t, flush0_1 t, ?_⟩
  rw [mem_outBlock]
  obtain ⟨-, -, -, -, f0, f1, f2, f3, -⟩ := gridMaps t
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 11 ≤ (i 1).val ∧ (i 1).val < win0_1.index t (1 : Fin 4) * 11 + 11
    omega
  | ⟨2, _⟩ =>
    show win0_1.index t (2 : Fin 4) * 55 ≤ (i 2).val ∧ (i 2).val < win0_1.index t (2 : Fin 4) * 55 + 55
    omega
  | ⟨3, _⟩ =>
    show win0_1.index t (3 : Fin 4) * 2048 ≤ (i 3).val ∧ (i 3).val < win0_1.index t (3 : Fin 4) * 2048 + 2048
    omega

/-- After the region the result array holds the windows of the launch image. -/
theorem final (c : Dev nD) :
    (dats m 0 c).arrAt 1 cfg0.N = windows (m ((c.tc : Thread nD τ).loc main_arg0)) := by
  exact (dats m 0 c).arrAt_eq_of_cover 1 (windows (m ((c.tc : Thread nD τ).loc main_arg0)))
    (fun t _ => writeBack_eq m c t) blocks_tile

end Cert.KernelIdeal.Patch

end
-- ==== Proof.KRun.lean ====
/-
  The idealized kernel's run: after the region the [16, 55, 55, 2048] result is flattened to [16, 3025, 2048], row 55·p + v
  being window (p, v); that is the patch array of the launch image.
-/
import proofs.«426292_j19344532701687_3_alg».proof.Proof.KArray

noncomputable section

namespace Cert.KernelIdeal.Patch

open Idealize.ShloMosaic Idealize.ShloMosaic.ValueIdx Idealize.ShloMosaic.TcCoe Idealize.SL.Sem Cert.KernelIdeal Cert.KernelIdeal.Gen

variable {F : FTy → Type} [FloatOps F]

/-- Flattening the windows: entry (b, n, f) of the flattened array is window (n / 55, n % 55) of image b at f, because
    row-major position ((b·55 + p)·55 + v)·2048 + f is (b·3025 + 55·p + v)·2048 + f. That is the patch array. -/
theorem flatten_windows {α : Type} (x : Cert.Patches.SX.Idx → α) (hc : S16x55x55x2048.ShapeCasts S16x3025x2048) :
    shapeCast S16x3025x2048 (windows x) hc = Cert.Patches.patches x := by
  funext i
  have h0 : (i 0).val < 16 := (i 0).isLt
  have h1 : (i 1).val < 3025 := (i 1).isLt
  have h2 : (i 2).val < 2048 := (i 2).isLt
  refine (Idealize.ShloMosaic.shapeCast_apply (windows x) hc i
    (ix4 (⟨(i 0).val, h0⟩ : Fin 16) (⟨(i 1).val / 55, by omega⟩ : Fin 55) (⟨(i 1).val % 55, by omega⟩ : Fin 55)
      (⟨(i 2).val, h2⟩ : Fin 2048)) ?_).trans ?_
  · rw [Shape.rowMajor_val_four, Shape.rowMajor_val_three]
    show (((i 0).val * 55 + (i 1).val / 55) * 55 + (i 1).val % 55) * 2048 + (i 2).val
      = ((i 0).val * 3025 + (i 1).val) * 2048 + (i 2).val
    omega
  · rfl

variable (m : (ℓ : Loc nD τ sig) → Buf (Elt F) ℓ)

/-- The one host operation after the region flattens the region's result; nothing else writes the result buffer. -/
theorem tail_result (c : Dev nD) :
    Pipeline.afterTail₀ cfgs (dats m) 0 (V0 m) [hostOps1] c main_v2
      = Cert.Patches.patches (m ((c.tc : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = windows (m ((c.tc : Thread nD τ).loc main_arg0)) :=
    (Pipeline.withArrays_arr spec0 launch0.win.arr_inj c _ _ 1).trans (final m c)
  rw [hw]
  exact flatten_windows _ _

/-- Every weakly fair execution of the idealized kernel ends with the result at the patch array of the argument, the
    argument unchanged: the region's run, read at the result buffer and at the argument. -/
theorem run (ρ : Dev nD → PrngReg) :
    θ_run defs (onTc (τ := τ) (main (F := F))) ⟨m, fun _ => 0, ρ⟩ fun r => ∀ c : Dev nD,
      r.2.mem ((c.tc : Thread nD τ).loc main_v2) = Cert.Patches.patches (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (tail_result m c),
     ((h c).2 main_arg0 (Pipeline.mem_restRefs_of main_arg0 (by decide) (by decide))).trans (W_main_arg0 m (dats m) c)⟩)
    (run_main m ρ)

end Cert.KernelIdeal.Patch

end
-- ==== Proof.RefTerm.lean ====
/-
  The reference as one term of its argument. It builds the table of rows to read, entry 4·p + c being 2·p + c (an iota
  over the 55 window positions doubled, plus an iota over the 4 offsets inside a window), and reads the image batch
  through it twice, first along w and then along h. Each read is a take in the style of numpy: a negative index would
  have the axis length 112 added, an index outside [0, 111] would make the entry a not-a-number filler, and the entries
  in range are gathered. The [16, 220, 220, 128] result is split into [16, 55, 4, 55, 4, 128], the two middle axes are
  exchanged, and the whole is flattened to [16, 3025, 2048]. The definitions below are the operations in the order
  the program performs them.
-/
import proofs.«426292_j19344532701687_3_alg».proof.ReferenceIdeal

noncomputable section

namespace Cert.ReferenceIdeal.Patch

open Idealize.ShloMosaic Cert.ReferenceIdeal Cert.ReferenceIdeal.Facts₀

variable {F : FTy → Type} [FloatOps F] [Facts]

/-- The table of rows to read: entry (p, c) of the [55, 4] table 2·p + c, flattened to 220 entries. -/
def starts : IVec S220 32 :=
  shapeCast S220
    (addi
      (broadcastInDim S55x4 ![0, 1] bcast_S55x1_S55x4_0_1
        (muli (broadcastInDim S55x1 ![0] bcast_S55_S55x1_0 (iotaInDim S55 32 0))
          (broadcastInDim S55x1 ![] bcast_S_S55x1 (constantI S_ 32 2#32))))
      (broadcastInDim S55x4 ![0, 1] bcast_S1x4_S55x4_0_1
        (broadcastInDim S1x4 ![1] bcast_S4_S1x4_1 (iotaInDim S4 32 0))))
    shapeCasts_S55x4_S220

/-- A take's index table made non-negative: an entry below zero has the axis length 112 added. -/
def wrap (t : IVec S220 32) : IVec S220 32 :=
  select (cmpi .slt t (broadcastInDim S220 ![] bcast_S_S220 (constantI S_ 32 0#32)))
    (addi t (broadcastInDim S220 ![] bcast_S_S220 (constantI S_ 32 112#32))) t

/-- The wrapped table as the [220, 1] column of start indices the gather takes. -/
def col (t : IVec S220 32) : IVec S220x1 32 :=
  broadcastInDim S220x1 ![0] bcast_S220_S220x1_0 (wrap t)

/-- Per table entry, whether the wrapped index lies in [0, 111]. -/
def inRange (t : IVec S220 32) : IVec S220 1 :=
  Host.reduce IntOp.andi
    (andi (cmpi .sge (col t) (broadcastInDim S220x1 ![] bcast_S_S220x1 (constantI S_ 32 0#32)))
      (cmpi .sle (col t)
        (broadcastInDim S220x1 ![0, 1] bcast_S1x1_S220x1_0_1
          (broadcastInDim S1x1 ![1] bcast_S1_S1x1_1 (constantI S1 32 111#32)))))
    (constantI S_ 1 1#1) reducesTo_S220x1_S220_d1 h_S_

/-- The take along w: rows `t` of each image, an out-of-range entry replaced by the filler. -/
def takeW (x : Vec F S16x112x112x128 .f32) (t : IVec S220 32) : Vec F S16x220x112x128 .f32 :=
  select (broadcastInDim S16x220x112x128 ![1] bcast_S220_S16x220x112x128_1 (inRange t))
    (Host.gather gather_S16x112x112x128_S220x1_S16x220x112x128_023_1_n_n_1_1_161112128 x (col t))
    (broadcastInDim S16x220x112x128 ![] bcast_S_S16x220x112x128 (constant S_ .f32 0x7FC00000#32))

/-- The take along h of the result of the take along w. -/
def takeH (x : Vec F S16x220x112x128 .f32) (t : IVec S220 32) : Vec F S16x220x220x128 .f32 :=
  select (broadcastInDim S16x220x220x128 ![2] bcast_S220_S16x220x220x128_2 (inRange t))
    (Host.gather gather_S16x220x112x128_S220x1_S16x220x220x128_013_2_n_n_2_1_162201128 x (col t))
    (broadcastInDim S16x220x220x128 ![] bcast_S_S16x220x220x128 (constant S_ .f32 0x7FC00000#32))

/-- The three layout steps after the takes: split both taken axes into (position, offset), bring the two position
    axes together, flatten. -/
def relayout (g : Vec F S16x220x220x128 .f32) : Vec F S16x3025x2048 .f32 :=
  shapeCast S16x3025x2048
    (transpose S16x55x55x4x4x128 [0, 1, 3, 2, 4, 5]
      (shapeCast S16x55x4x55x4x128 g shapeCasts_S16x220x220x128_S16x55x4x55x4x128)
      transposes_S16x55x4x55x4x128_S16x55x55x4x4x128_0_1_3_2_4_5)
    shapeCasts_S16x55x55x4x4x128_S16x3025x2048

/-- The reference's result as a function of its argument. -/
def refTerm (x : Vec F S16x112x112x128 .f32) : Vec F S16x3025x2048 .f32 :=
  relayout (takeH (takeW x starts) starts)

end Cert.ReferenceIdeal.Patch

end
-- ==== Proof.RefRun.lean ====
/-
  The reference's run: its program is a straight line of host operations (the three private functions it calls are
  executed in place on the callers' buffers), so every execution ends with the result buffer at the operations'
  composed term of the argument and the argument untouched.
-/
import proofs.«426292_j19344532701687_3_alg».proof.Proof.Gen.ReferenceIdeal
import proofs.«426292_j19344532701687_3_alg».proof.Proof.RefTerm
import Idealize.ShloMosaic.Lib.StableHlo.Run

noncomputable section

namespace Cert.ReferenceIdeal.Patch

open Cert.ReferenceIdeal Cert.ReferenceIdeal.Gen Idealize.ShloMosaic Idealize.ShloMosaic.TcCoe Idealize.SL.Sem Idealize.ShloMosaic.StableHlo

variable {F : FTy → Type} [FloatOps F]

/-- The table of rows, first copy: entry (p, c) of the [55, 4] table 2·p + c, flattened. Eleven operations. -/
abbrev opsTabW : List (HloOp τ sig (Elt F)) :=
  [ nullary main_v0 (iotaInDim S55 32 0),
    unary main_v0 main_v1 (broadcastInDim S55x1 ![0] bcast_S55_S55x1_0),
    nullary main_c (constantI S_ 32 2#32),
    unary main_c main_v2 (broadcastInDim S55x1 ![] bcast_S_S55x1),
    binary main_v1 main_v2 main_v3 muli,
    nullary main_v4 (iotaInDim S4 32 0),
    unary main_v4 main_v5 (broadcastInDim S1x4 ![1] bcast_S4_S1x4_1),
    unary main_v3 main_v6 (broadcastInDim S55x4 ![0, 1] bcast_S55x1_S55x4_0_1),
    unary main_v5 main_v7 (broadcastInDim S55x4 ![0, 1] bcast_S1x4_S55x4_0_1),
    binary main_v6 main_v7 main_v8 addi,
    reshape main_v8 main_v9 rfl shapeCasts_S55x4_S220 ]

/-- The table of rows, second copy, for the take along h. -/
abbrev opsTabH : List (HloOp τ sig (Elt F)) :=
  [ nullary main_v10 (iotaInDim S55 32 0),
    unary main_v10 main_v11 (broadcastInDim S55x1 ![0] bcast_S55_S55x1_0),
    nullary main_c_0 (constantI S_ 32 2#32),
    unary main_c_0 main_v12 (broadcastInDim S55x1 ![] bcast_S_S55x1),
    binary main_v11 main_v12 main_v13 muli,
    nullary main_v14 (iotaInDim S4 32 0),
    unary main_v14 main_v15 (broadcastInDim S1x4 ![1] bcast_S4_S1x4_1),
    unary main_v13 main_v16 (broadcastInDim S55x4 ![0, 1] bcast_S55x1_S55x4_0_1),
    unary main_v15 main_v17 (broadcastInDim S55x4 ![0, 1] bcast_S1x4_S55x4_0_1),
    binary main_v16 main_v17 main_v18 addi,
    reshape main_v18 main_v19 rfl shapeCasts_S55x4_S220 ]

/-- The take along w, its function's twenty-three operations over the first call's buffers. -/
abbrev opsTakeW : List (HloOp τ sig (Elt F)) :=
  [ TRef.nullary main_call0.c (constantI S_ 32 0#32),
    TRef.unary main_call0.c main_call0.v0 (broadcastInDim S220 ![] bcast_S_S220),
    TRef.binary (.of main_v9) main_call0.v0 main_call0.v1 (cmpi .slt),
    TRef.nullary main_call0.c_0 (constantI S_ 32 112#32),
    TRef.unary main_call0.c_0 main_call0.v2 (broadcastInDim S220 ![] bcast_S_S220),
    TRef.binary (.of main_v9) main_call0.v2 main_call0.v3 addi,
    TRef.ternary main_call0.v1 main_call0.v3 (.of main_v9) main_call0.call0.v0 select,
    TRef.unary main_call0.call0.v0 main_call0.v5 (broadcastInDim S220x1 ![0] bcast_S220_S220x1_0),
    TRef.nullary main_call0.c_1 (constantI S1 32 111#32),
    TRef.nullary main_call0.c_2 (constantI S_ 32 0#32),
    TRef.unary main_call0.c_2 main_call0.v6 (broadcastInDim S220x1 ![] bcast_S_S220x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S220x1 ![0, 1] bcast_S1x1_S220x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S220x1_S220_d1 h_S_),
    TRef.binary (.of main_arg0) main_call0.v5 main_call0.v13 (fun x i => Host.gather gather_S16x112x112x128_S220x1_S16x220x112x128_023_1_n_n_1_1_161112128 x i),
    TRef.unary main_call0.v12 main_call0.v14 (broadcastInDim S16x220x112x128 ![1] bcast_S220_S16x220x112x128_1),
    TRef.nullary main_call0.cst (constant S_ .f32 0x7FC00000#32),
    TRef.unary main_call0.cst main_call0.v15 (broadcastInDim S16x220x112x128 ![] bcast_S_S16x220x112x128),
    TRef.ternary main_call0.v14 main_call0.v13 main_call0.v15 main_call0.v16 select ]

/-- The take along h, over the second call's buffers. -/
abbrev opsTakeH : List (HloOp τ sig (Elt F)) :=
  [ TRef.nullary main_call1.c (constantI S_ 32 0#32),
    TRef.unary main_call1.c main_call1.v0 (broadcastInDim S220 ![] bcast_S_S220),
    TRef.binary (.of main_v19) main_call1.v0 main_call1.v1 (cmpi .slt),
    TRef.nullary main_call1.c_0 (constantI S_ 32 112#32),
    TRef.unary main_call1.c_0 main_call1.v2 (broadcastInDim S220 ![] bcast_S_S220),
    TRef.binary (.of main_v19) main_call1.v2 main_call1.v3 addi,
    TRef.ternary main_call1.v1 main_call1.v3 (.of main_v19) main_call1.call0.v0 select,
    TRef.unary main_call1.call0.v0 main_call1.v5 (broadcastInDim S220x1 ![0] bcast_S220_S220x1_0),
    TRef.nullary main_call1.c_1 (constantI S1 32 111#32),
    TRef.nullary main_call1.c_2 (constantI S_ 32 0#32),
    TRef.unary main_call1.c_2 main_call1.v6 (broadcastInDim S220x1 ![] bcast_S_S220x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S220x1 ![0, 1] bcast_S1x1_S220x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S220x1_S220_d1 h_S_),
    TRef.binary (.of main_v20) main_call1.v5 main_call1.v13 (fun x i => Host.gather gather_S16x220x112x128_S220x1_S16x220x220x128_013_2_n_n_2_1_162201128 x i),
    TRef.unary main_call1.v12 main_call1.v14 (broadcastInDim S16x220x220x128 ![2] bcast_S220_S16x220x220x128_2),
    TRef.nullary main_call1.cst (constant S_ .f32 0x7FC00000#32),
    TRef.unary main_call1.cst main_call1.v15 (broadcastInDim S16x220x220x128 ![] bcast_S_S16x220x220x128),
    TRef.ternary main_call1.v14 main_call1.v13 main_call1.v15 main_call1.v16 select ]

/-- The three layout steps. -/
abbrev opsLayout : List (HloOp τ sig (Elt F)) :=
  [ reshape main_v21 main_v22 rfl shapeCasts_S16x220x220x128_S16x55x4x55x4x128,
    unary main_v22 main_v23 (transpose S16x55x55x4x4x128 [0, 1, 3, 2, 4, 5] · transposes_S16x55x4x55x4x128_S16x55x55x4x4x128_0_1_3_2_4_5),
    reshape main_v23 main_v24 rfl shapeCasts_S16x55x55x4x4x128_S16x3025x2048 ]

/-- The program's operations in order, the calls unfolded. -/
abbrev ops : List (HloOp τ sig (Elt F)) := opsTabW ++ opsTabH ++ opsTakeW ++ opsTakeH ++ opsLayout

/-- Running two stretches one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## Each stretch over any contents -/

section Stretches

variable (W : Valuation τ sig (Elt F))

theorem tabW_result : after opsTabW W (main_v9 : DevRef τ sig) = starts := by
  after_results_simp
  rfl

theorem tabW_arg : after opsTabW W (main_arg0 : DevRef τ sig) = W (main_arg0 : DevRef τ sig) := by
  after_results_simp

theorem tabH_result : after opsTabH W (main_v19 : DevRef τ sig) = starts := by
  after_results_simp
  rfl

theorem tabH_keeps : after opsTabH W (main_v9 : DevRef τ sig) = W (main_v9 : DevRef τ sig) := by
  after_results_simp

theorem tabH_arg : after opsTabH W (main_arg0 : DevRef τ sig) = W (main_arg0 : DevRef τ sig) := by
  after_results_simp

attribute [local irreducible] Host.reduce Host.gather in
set_option maxRecDepth 8192 in
theorem takeW_result : after opsTakeW W (main_v20 : DevRef τ sig)
    = takeW (W (main_arg0 : DevRef τ sig)) (W (main_v9 : DevRef τ sig)) := by
  after_results_simp
  rfl

theorem takeW_keeps : after opsTakeW W (main_v19 : DevRef τ sig) = W (main_v19 : DevRef τ sig) := by
  after_results_simp

theorem takeW_arg : after opsTakeW W (main_arg0 : DevRef τ sig) = W (main_arg0 : DevRef τ sig) := by
  after_results_simp

attribute [local irreducible] Host.reduce Host.gather in
set_option maxRecDepth 8192 in
theorem takeH_result : after opsTakeH W (main_v21 : DevRef τ sig)
    = takeH (W (main_v20 : DevRef τ sig)) (W (main_v19 : DevRef τ sig)) := by
  after_results_simp
  rfl

theorem takeH_arg : after opsTakeH W (main_arg0 : DevRef τ sig) = W (main_arg0 : DevRef τ sig) := by
  after_results_simp

theorem layout_result : after opsLayout W (main_v24 : DevRef τ sig) = relayout (W (main_v21 : DevRef τ sig)) := by
  after_results_simp
  rfl

theorem layout_arg : after opsLayout W (main_arg0 : DevRef τ sig) = W (main_arg0 : DevRef τ sig) := by
  after_results_simp

end Stretches

/-! ## The whole line -/

set_option maxRecDepth 8192 in
set_option maxHeartbeats 4000000 in
/-- The program is that straight line: the called functions' bodies unfold at the calls. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem opsTabW_sub : (opsTabW : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., unary_bufs_sub .., unary_bufs_sub .., binary_bufs_sub .., reshape_bufs_sub ..⟩
theorem opsTabH_sub : (opsTabH : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., unary_bufs_sub .., unary_bufs_sub .., binary_bufs_sub .., reshape_bufs_sub ..⟩
theorem opsTakeW_sub : (opsTakeW : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsTakeH_sub : (opsTakeH : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem opsLayout_sub : (opsLayout : List (HloOp τ sig (Elt F))).Forall fun op => op.bufs ⊆ tcRefs τ sig :=
  ⟨reshape_bufs_sub .., unary_bufs_sub .., reshape_bufs_sub ..⟩

/-- Every operation touches buffers of the device only. -/
theorem ops_sub : (ops : List (HloOp τ sig (Elt F))).Forall fun op => op.bufs ⊆ tcRefs τ sig :=
  List.forall_append.mpr ⟨List.forall_append.mpr ⟨List.forall_append.mpr ⟨List.forall_append.mpr
    ⟨opsTabW_sub, opsTabH_sub⟩, opsTakeW_sub⟩, opsTakeH_sub⟩, opsLayout_sub⟩

/-- The result buffer after the whole line: the layout steps of the take along h of the take along w of the argument,
    both takes through the table of rows; each stretch leaves what the later ones read as the earlier ones made it. -/
theorem out_eq (V : Valuation τ sig (Elt F)) :
    after ops V (main_v24 : DevRef τ sig) = refTerm (V (main_arg0 : DevRef τ sig)) := by
  show after ((((opsTabW ++ opsTabH) ++ opsTakeW) ++ opsTakeH) ++ opsLayout) V (main_v24 : DevRef τ sig) = _
  rw [after_append, layout_result, after_append, takeH_result, after_append, takeW_result, takeW_keeps,
    after_append, tabH_result, tabH_keeps, tabH_arg, tabW_result, tabW_arg]
  rfl

/-- No operation writes the argument. -/
theorem arg0_eq (V : Valuation τ sig (Elt F)) :
    after ops V (main_arg0 : DevRef τ sig) = V (main_arg0 : DevRef τ sig) := by
  show after ((((opsTabW ++ opsTabH) ++ opsTakeW) ++ opsTakeH) ++ opsLayout) V (main_arg0 : DevRef τ sig) = _
  rw [after_append, layout_arg, after_append, takeH_arg, after_append, takeW_arg, after_append, tabH_arg, tabW_arg]

/-- Every weakly fair execution of the reference ends with the result at `refTerm` of the argument, the argument
    unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v24).trans (out_eq _), (h c main_arg0).trans (arg0_eq _)⟩)
    (run_seq scopedRefs_eq scopedSems_eq defs main (fun _ => ops) main_eq (fun _ => ops_sub) m ρ)

end Cert.ReferenceIdeal.Patch

end
-- ==== Proof.RefTable.lean ====
/-
  The table of rows, entry by entry. Entry 4·p + c of the flattened [55, 4] table is 2·p + c as a 32-bit word, at most
  2·54 + 3 = 111: it is not negative as a signed word, so the take's wrap leaves it alone, and it lies in [0, 111], so
  the take's range test passes at every entry.
-/
import proofs.«426292_j19344532701687_3_alg».proof.Proof.RefTerm
import Idealize.ShloMosaic.Lib.ValueIdx
import Idealize.ShloMosaic.Lib.Pipeline.Value
import Idealize.ShloMosaic.Lib.IdealHost
import Idealize.ShloMosaic.Lib.StableHlo.Predicate

noncomputable section

namespace Cert.ReferenceIdeal.Patch

open Idealize.ShloMosaic Idealize.ShloMosaic.ValueIdx Cert.ReferenceIdeal Cert.ReferenceIdeal.Facts₀

variable [Facts]

/-- Entry (p, c) of the [55, 4] table before it is flattened: the doubled position iota plus the offset iota. -/
private theorem table_apply (p : Fin 55) (c : Fin 4) :
    (addi
      (broadcastInDim S55x4 ![0, 1] bcast_S55x1_S55x4_0_1
        (muli (broadcastInDim S55x1 ![0] bcast_S55_S55x1_0 (iotaInDim S55 32 0))
          (broadcastInDim S55x1 ![] bcast_S_S55x1 (constantI S_ 32 2#32))))
      (broadcastInDim S55x4 ![0, 1] bcast_S1x4_S55x4_0_1
        (broadcastInDim S1x4 ![1] bcast_S4_S1x4_1 (iotaInDim S4 32 0)))) (ix2 p c)
      = BitVec.ofNat 32 (2 * p.val + c.val) := by
  show IntOp.addi
      (broadcastInDim S55x4 ![0, 1] bcast_S55x1_S55x4_0_1
        (muli (broadcastInDim S55x1 ![0] bcast_S55_S55x1_0 (iotaInDim S55 32 0))
          (broadcastInDim S55x1 ![] bcast_S_S55x1 (constantI S_ 32 2#32))) (ix2 p c))
      (broadcastInDim S55x4 ![0, 1] bcast_S1x4_S55x4_0_1
        (broadcastInDim S1x4 ![1] bcast_S4_S1x4_1 (iotaInDim S4 32 0)) (ix2 p c)) = _
  -- each broadcast reads its operand at the coordinates it keeps, zero on the unit axis
  rw [broadcastInDim_apply ![0, 1] bcast_S55x1_S55x4_0_1 _ (ix2 p c) (ix2 p (0 : Fin 1))
        (fun a => match a with | ⟨0, _⟩ => rfl | ⟨1, _⟩ => rfl),
      broadcastInDim_apply ![0, 1] bcast_S1x4_S55x4_0_1 _ (ix2 p c) (ix2 (0 : Fin 1) c)
        (fun a => match a with | ⟨0, _⟩ => rfl | ⟨1, _⟩ => rfl),
      broadcastInDim_apply ![1] bcast_S4_S1x4_1 _ (ix2 (0 : Fin 1) c) (ix1 c)
        (fun a => match a with | ⟨0, _⟩ => rfl)]
  show IntOp.addi (IntOp.muli
        (broadcastInDim S55x1 ![0] bcast_S55_S55x1_0 (iotaInDim S55 32 0) (ix2 p (0 : Fin 1)))
        (broadcastInDim S55x1 ![] bcast_S_S55x1 (constantI S_ 32 2#32) (ix2 p (0 : Fin 1))))
      (iotaInDim S4 32 0 (ix1 c)) = _
  rw [broadcastInDim_apply ![0] bcast_S55_S55x1_0 _ (ix2 p (0 : Fin 1)) (ix1 p)
        (fun a => match a with | ⟨0, _⟩ => rfl),
      broadcastInDim_scalar_apply]
  -- the two iotas read the coordinates as words; word product and sum are those of the naturals, reduced mod 2³²
  show BitVec.ofNat 32 p.val * BitVec.ofNat 32 2 + BitVec.ofNat 32 c.val = _
  rw [← BitVec.ofNat_mul, ← BitVec.ofNat_add, Nat.mul_comm]

/-- Entry q of the table of rows: 2·(q / 4) + q % 4. -/
theorem starts_apply (q : Fin 220) :
    starts (ix1 q) = BitVec.ofNat 32 (2 * (q.val / 4) + q.val % 4) := by
  have hq := q.isLt
  unfold starts
  -- position q of the flat table is position (q / 4, q % 4) of the [55, 4] table
  refine (shapeCast_apply _ shapeCasts_S55x4_S220 (ix1 q)
    (ix2 (⟨q.val / 4, by omega⟩ : Fin 55) (⟨q.val % 4, by omega⟩ : Fin 4)) ?_).trans (table_apply _ _)
  rw [Shape.rowMajor_val_two, Shape.rowMajor_val_one]
  show q.val / 4 * 4 + q.val % 4 = q.val
  omega

/-- A word below 2³¹ is not negative as a signed word, so the wrap's select keeps it. -/
private theorem select_slt_zero (n : Nat) (hn : n < 2 ^ 31) (A : BitVec 32) :
    Scalar.select (IntOp.cmpi .slt (BitVec.ofNat 32 n) 0#32) A (BitVec.ofNat 32 n) = BitVec.ofNat 32 n := by
  have h : IntOp.cmpi .slt (BitVec.ofNat 32 n) 0#32 = 0#1 :=
    eq_zero_of_ne_one fun h1 => by
      have := (StableHlo.Predicate.slt_ofNat_iff n 0 hn (by norm_num)).1 h1
      omega
  rw [h, select_zero]

/-- The wrap leaves every entry of the table of rows alone. -/
private theorem wrap_starts_apply (q : Fin 220) :
    wrap starts (ix1 q) = BitVec.ofNat 32 (2 * (q.val / 4) + q.val % 4) := by
  have hq := q.isLt
  show Scalar.select (IntOp.cmpi .slt (starts (ix1 q)) 0#32) (IntOp.addi (starts (ix1 q)) 112#32) (starts (ix1 q)) = _
  rw [starts_apply]
  exact select_slt_zero _ (by omega) _

/-- The column of start indices the gathers take, at the table of rows: the table itself. -/
theorem col_starts_apply (q : Fin 220) (u : Fin 1) :
    col starts (ix2 q u) = BitVec.ofNat 32 (2 * (q.val / 4) + q.val % 4) := by
  unfold col
  rw [broadcastInDim_apply ![0] bcast_S220_S220x1_0 _ (ix2 q u) (ix1 q)
        (fun a => match a with | ⟨0, _⟩ => rfl)]
  exact wrap_starts_apply q

/-- A word n ≤ 111 passes both signed range tests, 0 ≤ n and n ≤ 111. -/
private theorem range_word (n : Nat) (hn : n ≤ 111) :
    IntOp.andi (IntOp.cmpi .sge (BitVec.ofNat 32 n) 0#32) (IntOp.cmpi .sle (BitVec.ofNat 32 n) 111#32) = 1#1 := by
  have h0 : IntOp.cmpi .sge (BitVec.ofNat 32 n) 0#32 = 1#1 :=
    (StableHlo.Predicate.sle_ofNat_iff 0 n (by norm_num) (by omega)).2 (Nat.zero_le n)
  have h1 : IntOp.cmpi .sle (BitVec.ofNat 32 n) 111#32 = 1#1 :=
    (StableHlo.Predicate.sle_ofNat_iff n 111 (by omega) (by norm_num)).2 hn
  rw [h0, h1]
  rfl

/-- The conjunction of one-bit words that are all 1, taken from 1 over any finite set, is 1. -/
private theorem fold_andi_ones {ι : Type} (S : Finset ι) (x : ι → BitVec 1) (hx : ∀ i ∈ S, x i = 1#1) :
    S.fold IntOp.andi 1#1 x = 1#1 := by
  induction S using Finset.cons_induction with
  | empty => rfl
  | cons a S ha ih =>
    rw [Finset.fold_cons, ih (fun i hi => hx i (Finset.mem_cons_of_mem hi)), hx a (Finset.mem_cons_self a S)]
    rfl

/-- Every entry of the table of rows is in range. -/
theorem inRange_starts_apply (q : Fin 220) : inRange starts (ix1 q) = 1#1 := by
  unfold inRange
  rw [Host.reduce_eq_fold]
  refine fold_andi_ones _ _ fun i _ => ?_
  -- at each index of the [220, 1] column both range tests pass
  obtain ⟨a, u, rfl⟩ : ∃ a u, i = ix2 a u := ⟨i 0, i 1, eq_ix2 i⟩
  have ha := a.isLt
  show IntOp.andi (IntOp.cmpi .sge (col starts (ix2 a u)) 0#32) (IntOp.cmpi .sle (col starts (ix2 a u)) 111#32) = 1#1
  rw [col_starts_apply]
  exact range_word _ (by omega)

end Cert.ReferenceIdeal.Patch

end
-- ==== Proof.RefGather.lean ====
/-
  The two gathers at an index. Each takes whole slices of its operand that are one entry thick along one axis (w for
  the first, h for the second): entry q of the gathered axis is the slice at the start index the column holds at q, read
  as a signed word and clamped into [0, 111]; the other three coordinates pass through.
-/
import proofs.«426292_j19344532701687_3_alg».proof.Proof.RefTerm
import Idealize.ShloMosaic.Lib.ValueIdx

noncomputable section

namespace Cert.ReferenceIdeal.Patch

open Idealize.ShloMosaic Idealize.ShloMosaic.ValueIdx Cert.ReferenceIdeal Cert.ReferenceIdeal.Facts₀

variable {α : Type} [Facts]

/-- The start-indices index at which a result index of the gather along w with second coordinate q reads its one start
    component is the column's entry (q, 0): the result's only batch axis is axis 1, and the index vector's axis holds
    the single component 0. -/
private theorem gatherW_siIdx (b : Fin 16) (q : Fin 220) (h : Fin 112) (d : Fin 128) :
    GatherDims.siIdx gather_S16x112x112x128_S220x1_S16x220x112x128_023_1_n_n_1_1_161112128 (ix4 b q h d)
      ⟨0, Nat.zero_lt_one⟩ = ix2 q (0 : Fin 1) := by
  funext c
  refine Fin.ext ?_
  match c with
  | ⟨0, _⟩ => rfl
  | ⟨1, _⟩ => rfl

/-- The gather along w at an index. -/
theorem gatherW_apply (x : S16x112x112x128.Idx → α) (idx : IVec S220x1 32) (b : Fin 16) (q : Fin 220) (h : Fin 112) (d : Fin 128) :
    Host.gather gather_S16x112x112x128_S220x1_S16x220x112x128_023_1_n_n_1_1_161112128 x idx (ix4 b q h d)
      = x (ix4 b (⟨min (idx (ix2 q (0 : Fin 1))).toInt.toNat 111, by omega⟩ : Fin 112) h d) := by
  unfold Host.gather
  congr 1
  funext a
  refine Fin.ext ?_
  -- On each operand axis the coordinate read is the clamped start plus the batching coordinate plus the offset
  -- coordinate. There is no batching axis, so the middle term is always zero.
  match a with
  | ⟨0, _⟩ =>
    -- Axis 0 is an offset axis, the first of the kept axes: no start component, and the offset is the result's
    -- coordinate on its first offset axis, b.
    show GatherDims.start gather_S16x112x112x128_S220x1_S16x220x112x128_023_1_n_n_1_1_161112128 (ix4 b q h d) idx 0
      + GatherDims.batchCoord gather_S16x112x112x128_S220x1_S16x220x112x128_023_1_n_n_1_1_161112128 (ix4 b q h d) 0
      + GatherDims.offCoord gather_S16x112x112x128_S220x1_S16x220x112x128_023_1_n_n_1_1_161112128 (ix4 b q h d) 0 = b.val
    have h1 : GatherDims.start gather_S16x112x112x128_S220x1_S16x220x112x128_023_1_n_n_1_1_161112128 (ix4 b q h d) idx 0 = 0 := rfl
    have h2 : GatherDims.batchCoord gather_S16x112x112x128_S220x1_S16x220x112x128_023_1_n_n_1_1_161112128 (ix4 b q h d) 0 = 0 := rfl
    have h3 : GatherDims.offCoord gather_S16x112x112x128_S220x1_S16x220x112x128_023_1_n_n_1_1_161112128 (ix4 b q h d) 0 = b.val := rfl
    rw [h1, h2, h3, Nat.add_zero, Nat.zero_add]
  | ⟨1, _⟩ =>
    -- Axis 1 is the collapsed axis the start index map names: the start is the column's entry at (q, 0) read signed
    -- and clamped into [0, 112 - 1], and there is no offset.
    show GatherDims.start gather_S16x112x112x128_S220x1_S16x220x112x128_023_1_n_n_1_1_161112128 (ix4 b q h d) idx 1
      + GatherDims.batchCoord gather_S16x112x112x128_S220x1_S16x220x112x128_023_1_n_n_1_1_161112128 (ix4 b q h d) 1
      + GatherDims.offCoord gather_S16x112x112x128_S220x1_S16x220x112x128_023_1_n_n_1_1_161112128 (ix4 b q h d) 1
      = min (idx (ix2 q (0 : Fin 1))).toInt.toNat 111
    have h1 : GatherDims.start gather_S16x112x112x128_S220x1_S16x220x112x128_023_1_n_n_1_1_161112128 (ix4 b q h d) idx 1
        = min (idx (GatherDims.siIdx gather_S16x112x112x128_S220x1_S16x220x112x128_023_1_n_n_1_1_161112128 (ix4 b q h d)
            ⟨0, Nat.zero_lt_one⟩)).toInt.toNat 111 := rfl
    have h2 : GatherDims.batchCoord gather_S16x112x112x128_S220x1_S16x220x112x128_023_1_n_n_1_1_161112128 (ix4 b q h d) 1 = 0 := rfl
    have h3 : GatherDims.offCoord gather_S16x112x112x128_S220x1_S16x220x112x128_023_1_n_n_1_1_161112128 (ix4 b q h d) 1 = 0 := rfl
    rw [h1, h2, h3, gatherW_siIdx, Nat.add_zero]
  | ⟨2, _⟩ =>
    -- Axis 2 is the second kept axis: the offset is the result's coordinate on its second offset axis, h.
    show GatherDims.start gather_S16x112x112x128_S220x1_S16x220x112x128_023_1_n_n_1_1_161112128 (ix4 b q h d) idx 2
      + GatherDims.batchCoord gather_S16x112x112x128_S220x1_S16x220x112x128_023_1_n_n_1_1_161112128 (ix4 b q h d) 2
      + GatherDims.offCoord gather_S16x112x112x128_S220x1_S16x220x112x128_023_1_n_n_1_1_161112128 (ix4 b q h d) 2 = h.val
    have h1 : GatherDims.start gather_S16x112x112x128_S220x1_S16x220x112x128_023_1_n_n_1_1_161112128 (ix4 b q h d) idx 2 = 0 := rfl
    have h2 : GatherDims.batchCoord gather_S16x112x112x128_S220x1_S16x220x112x128_023_1_n_n_1_1_161112128 (ix4 b q h d) 2 = 0 := rfl
    have h3 : GatherDims.offCoord gather_S16x112x112x128_S220x1_S16x220x112x128_023_1_n_n_1_1_161112128 (ix4 b q h d) 2 = h.val := rfl
    rw [h1, h2, h3, Nat.add_zero, Nat.zero_add]
  | ⟨3, _⟩ =>
    -- Axis 3 is the third kept axis: the offset is the result's coordinate on its third offset axis, d.
    show GatherDims.start gather_S16x112x112x128_S220x1_S16x220x112x128_023_1_n_n_1_1_161112128 (ix4 b q h d) idx 3
      + GatherDims.batchCoord gather_S16x112x112x128_S220x1_S16x220x112x128_023_1_n_n_1_1_161112128 (ix4 b q h d) 3
      + GatherDims.offCoord gather_S16x112x112x128_S220x1_S16x220x112x128_023_1_n_n_1_1_161112128 (ix4 b q h d) 3 = d.val
    have h1 : GatherDims.start gather_S16x112x112x128_S220x1_S16x220x112x128_023_1_n_n_1_1_161112128 (ix4 b q h d) idx 3 = 0 := rfl
    have h2 : GatherDims.batchCoord gather_S16x112x112x128_S220x1_S16x220x112x128_023_1_n_n_1_1_161112128 (ix4 b q h d) 3 = 0 := rfl
    have h3 : GatherDims.offCoord gather_S16x112x112x128_S220x1_S16x220x112x128_023_1_n_n_1_1_161112128 (ix4 b q h d) 3 = d.val := rfl
    rw [h1, h2, h3, Nat.add_zero, Nat.zero_add]

/-- The start-indices index at which a result index of the gather along h with third coordinate r reads its one start
    component is the column's entry (r, 0): the result's only batch axis is axis 2, and the index vector's axis holds
    the single component 0. -/
private theorem gatherH_siIdx (b : Fin 16) (q : Fin 220) (r : Fin 220) (d : Fin 128) :
    GatherDims.siIdx gather_S16x220x112x128_S220x1_S16x220x220x128_013_2_n_n_2_1_162201128 (ix4 b q r d)
      ⟨0, Nat.zero_lt_one⟩ = ix2 r (0 : Fin 1) := by
  funext c
  refine Fin.ext ?_
  match c with
  | ⟨0, _⟩ => rfl
  | ⟨1, _⟩ => rfl

/-- The gather along h at an index. -/
theorem gatherH_apply (g : S16x220x112x128.Idx → α) (idx : IVec S220x1 32) (b : Fin 16) (q : Fin 220) (r : Fin 220) (d : Fin 128) :
    Host.gather gather_S16x220x112x128_S220x1_S16x220x220x128_013_2_n_n_2_1_162201128 g idx (ix4 b q r d)
      = g (ix4 b q (⟨min (idx (ix2 r (0 : Fin 1))).toInt.toNat 111, by omega⟩ : Fin 112) d) := by
  unfold Host.gather
  congr 1
  funext a
  refine Fin.ext ?_
  -- As for the gather along w, with the collapsed axis now axis 2 and the kept axes 0, 1, 3.
  match a with
  | ⟨0, _⟩ =>
    -- Axis 0 is the first kept axis: the offset is the result's coordinate on its first offset axis, b.
    show GatherDims.start gather_S16x220x112x128_S220x1_S16x220x220x128_013_2_n_n_2_1_162201128 (ix4 b q r d) idx 0
      + GatherDims.batchCoord gather_S16x220x112x128_S220x1_S16x220x220x128_013_2_n_n_2_1_162201128 (ix4 b q r d) 0
      + GatherDims.offCoord gather_S16x220x112x128_S220x1_S16x220x220x128_013_2_n_n_2_1_162201128 (ix4 b q r d) 0 = b.val
    have h1 : GatherDims.start gather_S16x220x112x128_S220x1_S16x220x220x128_013_2_n_n_2_1_162201128 (ix4 b q r d) idx 0 = 0 := rfl
    have h2 : GatherDims.batchCoord gather_S16x220x112x128_S220x1_S16x220x220x128_013_2_n_n_2_1_162201128 (ix4 b q r d) 0 = 0 := rfl
    have h3 : GatherDims.offCoord gather_S16x220x112x128_S220x1_S16x220x220x128_013_2_n_n_2_1_162201128 (ix4 b q r d) 0 = b.val := rfl
    rw [h1, h2, h3, Nat.add_zero, Nat.zero_add]
  | ⟨1, _⟩ =>
    -- Axis 1 is the second kept axis: the offset is the result's coordinate on its second offset axis, q.
    show GatherDims.start gather_S16x220x112x128_S220x1_S16x220x220x128_013_2_n_n_2_1_162201128 (ix4 b q r d) idx 1
      + GatherDims.batchCoord gather_S16x220x112x128_S220x1_S16x220x220x128_013_2_n_n_2_1_162201128 (ix4 b q r d) 1
      + GatherDims.offCoord gather_S16x220x112x128_S220x1_S16x220x220x128_013_2_n_n_2_1_162201128 (ix4 b q r d) 1 = q.val
    have h1 : GatherDims.start gather_S16x220x112x128_S220x1_S16x220x220x128_013_2_n_n_2_1_162201128 (ix4 b q r d) idx 1 = 0 := rfl
    have h2 : GatherDims.batchCoord gather_S16x220x112x128_S220x1_S16x220x220x128_013_2_n_n_2_1_162201128 (ix4 b q r d) 1 = 0 := rfl
    have h3 : GatherDims.offCoord gather_S16x220x112x128_S220x1_S16x220x220x128_013_2_n_n_2_1_162201128 (ix4 b q r d) 1 = q.val := rfl
    rw [h1, h2, h3, Nat.add_zero, Nat.zero_add]
  | ⟨2, _⟩ =>
    -- Axis 2 is the collapsed axis the start index map names: the start is the column's entry at (r, 0) read signed
    -- and clamped into [0, 112 - 1], and there is no offset.
    show GatherDims.start gather_S16x220x112x128_S220x1_S16x220x220x128_013_2_n_n_2_1_162201128 (ix4 b q r d) idx 2
      + GatherDims.batchCoord gather_S16x220x112x128_S220x1_S16x220x220x128_013_2_n_n_2_1_162201128 (ix4 b q r d) 2
      + GatherDims.offCoord gather_S16x220x112x128_S220x1_S16x220x220x128_013_2_n_n_2_1_162201128 (ix4 b q r d) 2
      = min (idx (ix2 r (0 : Fin 1))).toInt.toNat 111
    have h1 : GatherDims.start gather_S16x220x112x128_S220x1_S16x220x220x128_013_2_n_n_2_1_162201128 (ix4 b q r d) idx 2
        = min (idx (GatherDims.siIdx gather_S16x220x112x128_S220x1_S16x220x220x128_013_2_n_n_2_1_162201128 (ix4 b q r d)
            ⟨0, Nat.zero_lt_one⟩)).toInt.toNat 111 := rfl
    have h2 : GatherDims.batchCoord gather_S16x220x112x128_S220x1_S16x220x220x128_013_2_n_n_2_1_162201128 (ix4 b q r d) 2 = 0 := rfl
    have h3 : GatherDims.offCoord gather_S16x220x112x128_S220x1_S16x220x220x128_013_2_n_n_2_1_162201128 (ix4 b q r d) 2 = 0 := rfl
    rw [h1, h2, h3, gatherH_siIdx, Nat.add_zero]
  | ⟨3, _⟩ =>
    -- Axis 3 is the third kept axis: the offset is the result's coordinate on its third offset axis, d.
    show GatherDims.start gather_S16x220x112x128_S220x1_S16x220x220x128_013_2_n_n_2_1_162201128 (ix4 b q r d) idx 3
      + GatherDims.batchCoord gather_S16x220x112x128_S220x1_S16x220x220x128_013_2_n_n_2_1_162201128 (ix4 b q r d) 3
      + GatherDims.offCoord gather_S16x220x112x128_S220x1_S16x220x220x128_013_2_n_n_2_1_162201128 (ix4 b q r d) 3 = d.val
    have h1 : GatherDims.start gather_S16x220x112x128_S220x1_S16x220x220x128_013_2_n_n_2_1_162201128 (ix4 b q r d) idx 3 = 0 := rfl
    have h2 : GatherDims.batchCoord gather_S16x220x112x128_S220x1_S16x220x220x128_013_2_n_n_2_1_162201128 (ix4 b q r d) 3 = 0 := rfl
    have h3 : GatherDims.offCoord gather_S16x220x112x128_S220x1_S16x220x220x128_013_2_n_n_2_1_162201128 (ix4 b q r d) 3 = d.val := rfl
    rw [h1, h2, h3, Nat.add_zero, Nat.zero_add]

end Cert.ReferenceIdeal.Patch

end
-- ==== Proof.RefTake.lean ====
/-
  The two takes read at an index. The table of rows holds 2·(q / 4) + q % 4 at entry q, a number in [0, 111]; so no
  entry is negative, every entry is in range, the filler is never chosen, and a take is the gather: along w the
  entry (b, q, h, d) is x[b, 2·(q / 4) + q % 4, h, d], and along h the entry (b, q, r, d) is g[b, q, 2·(r / 4) + r % 4, d].
-/
import proofs.«426292_j19344532701687_3_alg».proof.Proof.RefTable
import proofs.«426292_j19344532701687_3_alg».proof.Proof.RefGather
import Idealize.ShloMosaic.Lib.Pipeline.Value
import Idealize.ShloMosaic.Lib.StableHlo.Predicate

noncomputable section

namespace Cert.ReferenceIdeal.Patch

open Idealize.ShloMosaic Idealize.ShloMosaic.ValueIdx Cert.ReferenceIdeal Cert.ReferenceIdeal.Facts₀

variable {F : FTy → Type} [FloatOps F] [Facts]

/-- A table entry read as a start index: the word 2·(q / 4) + q % 4 is below 2³¹, so its signed reading is the number
    itself, and the number is at most 111, so the clamp into [0, 111] leaves it alone. -/
private theorem clamp_col_starts (q : Fin 220) :
    min (col starts (ix2 q (0 : Fin 1))).toInt.toNat 111 = 2 * (q.val / 4) + q.val % 4 := by
  have hq : q.val < 220 := q.isLt
  rw [col_starts_apply q (0 : Fin 1),
    StableHlo.Predicate.toInt_ofNat_small (2 * (q.val / 4) + q.val % 4) (by omega), Int.toNat_natCast]
  omega

/-- The take along w at an index: the image's row 2·(q / 4) + q % 4. -/
theorem takeW_starts_apply (x : Vec F S16x112x112x128 .f32) (b : Fin 16) (q : Fin 220) (h : Fin 112) (d : Fin 128) :
    takeW x starts (ix4 b q h d)
      = x (ix4 b (⟨2 * (q.val / 4) + q.val % 4, by omega⟩ : Fin 112) h d) := by
  unfold takeW
  rw [select_apply,
    broadcastInDim_apply ![1] bcast_S220_S16x220x112x128_1 (inRange starts) (ix4 b q h d) (ix1 q)
      (fun a => by
        match a with
        | ⟨0, _⟩ => rfl),
    inRange_starts_apply, select_one, gatherW_apply]
  exact congrArg x (congrArg (fun w : Fin 112 => ix4 b w h d) (Fin.ext (clamp_col_starts q)))

/-- The take along h at an index: column 2·(r / 4) + r % 4 of the rows already taken. -/
theorem takeH_starts_apply (g : Vec F S16x220x112x128 .f32) (b : Fin 16) (q : Fin 220) (r : Fin 220) (d : Fin 128) :
    takeH g starts (ix4 b q r d)
      = g (ix4 b q (⟨2 * (r.val / 4) + r.val % 4, by omega⟩ : Fin 112) d) := by
  unfold takeH
  rw [select_apply,
    broadcastInDim_apply ![2] bcast_S220_S16x220x220x128_2 (inRange starts) (ix4 b q r d) (ix1 r)
      (fun a => by
        match a with
        | ⟨0, _⟩ => rfl),
    inRange_starts_apply, select_one, gatherH_apply]
  exact congrArg g (congrArg (fun w : Fin 112 => ix4 b q w d) (Fin.ext (clamp_col_starts r)))

end Cert.ReferenceIdeal.Patch

end
-- ==== Proof.RefValue.lean ====
/-
  The reference's term is the patch array. The three layout steps send entry (b, n, f) of the result to entry
  (b, 4·(n / 55) + f / 512, 4·(n % 55) + f / 128 % 4, f % 128) of the twice-taken array: the flattening reads row-major, the
  exchange of the two middle axes pairs the window's position along w with its position along h, and the split reads
  a taken axis of 220 as 55 positions of 4 offsets. The takes then turn entry 4·p + c of a taken axis into row 2·p + c.
-/
import proofs.«426292_j19344532701687_3_alg».proof.Proof.RefTake
import proofs.«426292_j19344532701687_3_alg».proof.Proof.Spec
import Idealize.ShloMosaic.Lib.Pipeline.Value
import Idealize.ShloMosaic.Lib.ValueIdxRank6

noncomputable section

namespace Cert.ReferenceIdeal.Patch

open Idealize.ShloMosaic Idealize.ShloMosaic.ValueIdx Cert.ReferenceIdeal Cert.ReferenceIdeal.Facts₀

variable {F : FTy → Type} [FloatOps F] [Facts]

/-- The layout steps at an index. -/
theorem relayout_apply (g : Vec F S16x220x220x128 .f32) (b : Fin 16) (n : Fin 3025) (f : Fin 2048) :
    relayout g (ix3 b n f)
      = g (ix4 b (⟨4 * (n.val / 55) + f.val / 512, by omega⟩ : Fin 220)
            (⟨4 * (n.val % 55) + f.val / 128 % 4, by omega⟩ : Fin 220) (⟨f.val % 128, by omega⟩ : Fin 128)) := by
  have hb : b.val < 16 := b.isLt
  have hn : n.val < 3025 := n.isLt
  have hf : f.val < 2048 := f.isLt
  unfold relayout
  -- The flattening: position (b·3025 + n)·2048 + f of the rank-3 array is entry (b, n / 55, n % 55, f / 512, f / 128 % 4, f % 128)
  -- of the rank-6 array.
  refine (shapeCast_apply _ shapeCasts_S16x55x55x4x4x128_S16x3025x2048 (ix3 b n f)
    (ix6 b (⟨n.val / 55, by omega⟩ : Fin 55) (⟨n.val % 55, by omega⟩ : Fin 55) (⟨f.val / 512, by omega⟩ : Fin 4)
      (⟨f.val / 128 % 4, by omega⟩ : Fin 4) (⟨f.val % 128, by omega⟩ : Fin 128))
    (by
      rw [Shape.rowMajor_val_six, Shape.rowMajor_val_three]
      show ((((b.val * 55 + n.val / 55) * 55 + n.val % 55) * 4 + f.val / 512) * 4 + f.val / 128 % 4) * 128 + f.val % 128
        = (b.val * 3025 + n.val) * 2048 + f.val
      omega)).trans ?_
  -- The exchange of the two middle axes.
  refine (transpose_apply [0, 1, 3, 2, 4, 5] _ transposes_S16x55x4x55x4x128_S16x55x55x4x4x128_0_1_3_2_4_5
    (ix6 b (⟨n.val / 55, by omega⟩ : Fin 55) (⟨n.val % 55, by omega⟩ : Fin 55) (⟨f.val / 512, by omega⟩ : Fin 4)
      (⟨f.val / 128 % 4, by omega⟩ : Fin 4) (⟨f.val % 128, by omega⟩ : Fin 128))
    (ix6 b (⟨n.val / 55, by omega⟩ : Fin 55) (⟨f.val / 512, by omega⟩ : Fin 4) (⟨n.val % 55, by omega⟩ : Fin 55)
      (⟨f.val / 128 % 4, by omega⟩ : Fin 4) (⟨f.val % 128, by omega⟩ : Fin 128))
    (fun a => match a with
      | ⟨0, _⟩ => rfl | ⟨1, _⟩ => rfl | ⟨2, _⟩ => rfl | ⟨3, _⟩ => rfl | ⟨4, _⟩ => rfl | ⟨5, _⟩ => rfl)).trans ?_
  -- The split of each taken axis of 220 into 55 positions of 4 offsets.
  exact shapeCast_apply g shapeCasts_S16x220x220x128_S16x55x4x55x4x128
    (ix6 b (⟨n.val / 55, by omega⟩ : Fin 55) (⟨f.val / 512, by omega⟩ : Fin 4) (⟨n.val % 55, by omega⟩ : Fin 55)
      (⟨f.val / 128 % 4, by omega⟩ : Fin 4) (⟨f.val % 128, by omega⟩ : Fin 128))
    (ix4 b (⟨4 * (n.val / 55) + f.val / 512, by omega⟩ : Fin 220)
      (⟨4 * (n.val % 55) + f.val / 128 % 4, by omega⟩ : Fin 220) (⟨f.val % 128, by omega⟩ : Fin 128))
    (by
      rw [Shape.rowMajor_val_four, Shape.rowMajor_val_six]
      show ((b.val * 220 + (4 * (n.val / 55) + f.val / 512)) * 220 + (4 * (n.val % 55) + f.val / 128 % 4)) * 128 + f.val % 128
        = ((((b.val * 55 + n.val / 55) * 4 + f.val / 512) * 55 + n.val % 55) * 4 + f.val / 128 % 4) * 128 + f.val % 128
      omega)

/-- The reference computes the patch array. -/
theorem refTerm_eq (x : Vec F S16x112x112x128 .f32) : refTerm x = Cert.Patches.patches x := by
  funext i
  obtain ⟨b, n, f, rfl⟩ : ∃ b n f, i = ix3 b n f := ⟨i 0, i 1, i 2, eq_ix3 i⟩
  have hn : n.val < 3025 := n.isLt
  have hf : f.val < 2048 := f.isLt
  unfold refTerm
  rw [relayout_apply, takeH_starts_apply, takeW_starts_apply, Cert.Patches.patches_apply]
  unfold Cert.Patches.src
  refine congrArg x (funext fun a => ?_)
  match a with
  | ⟨0, _⟩ => rfl
  | ⟨1, _⟩ =>
    -- Along w: 4·(n / 55) + f / 512 has quotient n / 55 and remainder f / 512 by 4, since f / 512 < 4.
    refine Fin.ext ?_
    show 2 * ((4 * (n.val / 55) + f.val / 512) / 4) + (4 * (n.val / 55) + f.val / 512) % 4 = 2 * (n.val / 55) + f.val / 512
    omega
  | ⟨2, _⟩ =>
    -- Along h: 4·(n % 55) + f / 128 % 4 has quotient n % 55 and remainder f / 128 % 4 by 4.
    refine Fin.ext ?_
    show 2 * ((4 * (n.val % 55) + f.val / 128 % 4) / 4) + (4 * (n.val % 55) + f.val / 128 % 4) % 4
      = 2 * (n.val % 55) + f.val / 128 % 4
    omega
  | ⟨3, _⟩ => rfl

end Cert.ReferenceIdeal.Patch

end
-- ==== Proof.RefClaim.lean ====
/-
  The reference's run with its result named as the patch array of the argument.
-/
import proofs.«426292_j19344532701687_3_alg».proof.Proof.RefRun
import proofs.«426292_j19344532701687_3_alg».proof.Proof.RefValue

noncomputable section

namespace Cert.ReferenceIdeal.Patch

open Cert.ReferenceIdeal Cert.ReferenceIdeal.Gen Idealize.ShloMosaic Idealize.ShloMosaic.TcCoe Idealize.SL.Sem

variable {F : FTy → Type} [FloatOps F]

/-- Every weakly fair execution of the reference ends with the result at the patch array of the argument, the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = Cert.Patches.patches (m ((c.tc : Thread nD τ).loc main_arg0))
      ∧ r.2.mem ((c.tc : Thread nD τ).loc main_arg0) = m ((c.tc : Thread nD τ).loc main_arg0) :=
  (θ_run defs _ _).mono (fun _ h c => ⟨(h c).1.trans (refTerm_eq _), (h c).2⟩) (run_term m ρ)

end Cert.ReferenceIdeal.Patch

end
-- ==== Proof.lean ====
/-
  The kernel cuts every 4 × 4 window at stride 2 out of an image batch and lists the windows as rows; the reference
  does the same with two takes and a transposition. Neither does arithmetic, so over the extended reals both results
  are the input read through one index map (Proof/Spec.lean), and the claim's value part is that the two maps agree.
  The kernel's side: each grid point's output block as a function of the image (Proof/KBlock.lean), the blocks tiling the
  region's result (Proof/KArray.lean), the flattening after the region (Proof/KRun.lean). The reference's side: its run
  as a straight line of host operations (Proof/RefRun.lean), the takes at an index (Proof/RefTake.lean), the layout
  steps and the comparison of the index maps (Proof/RefValue.lean). No entry is ever combined with another, so the
  finiteness of the inputs is not used. The idealization rewrote nothing, so that conjunct is trivial.
-/
import proofs.«426292_j19344532701687_3_alg».proof.Defs
import proofs.«426292_j19344532701687_3_alg».proof.Proof.Gen.Kernel
import proofs.«426292_j19344532701687_3_alg».proof.Proof.Gen.Kernel.Frame
import proofs.«426292_j19344532701687_3_alg».proof.Proof.Gen.KernelIdeal
import proofs.«426292_j19344532701687_3_alg».proof.Proof.Gen.KernelIdeal.Frame
import proofs.«426292_j19344532701687_3_alg».proof.Proof.Gen.ReferenceIdeal
import proofs.«426292_j19344532701687_3_alg».proof.Proof.Gen.Pre_finite_inputs
import proofs.«426292_j19344532701687_3_alg».proof.Proof.KRun
import proofs.«426292_j19344532701687_3_alg».proof.Proof.RefClaim

noncomputable section

namespace Cert.Proof

open Idealize.ShloMosaic Idealize.SL.Sem

/-- The word-level kernel terminates without a fault and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and its run leaves the argument as it was. -/
theorem frame_referenceIdeal : Cert.frame_ReferenceIdeal := fun m ρ _ =>
  (θ_run Cert.ReferenceIdeal.defs _ _).mono (fun _ h c => (h c).2) (Cert.ReferenceIdeal.Patch.run (F := Ideal) m ρ)

/-- Both programs end with the patch array of their argument; the arguments agree, so the results do. -/
theorem algebraic : Cert.algebraic_KernelIdeal_ReferenceIdeal := by
  intro m ρ m' ρ' _ hagree
  refine ⟨fun c => Cert.Patches.patches (m ((c.tc : Thread Cert.KernelIdeal.nD Cert.KernelIdeal.τ).loc Cert.KernelIdeal.main_arg0)),
    Cert.KernelIdeal.Patch.run (F := Ideal) m ρ, ?_⟩
  refine (θ_run Cert.ReferenceIdeal.defs _ _).mono (fun _ h c => ⟨(h c).1.trans ?_, (h c).2⟩)
    (Cert.ReferenceIdeal.Patch.run (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
